-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x7 : S_.BroadcastsInDim S8192x7 (![] : Fin 0 → Fin S8192x7.rank)
  reducesTo_S8192x7_S_d0_1 : S8192x7.ReducesTo [0, 1] S_
  bcast_S_S10000x70 : S_.BroadcastsInDim S10000x70 (![] : Fin 0 → Fin S10000x70.rank)
  reducesTo_S10000x70_S_d0_1 : S10000x70.ReducesTo [0, 1] S_
  bcast_S_S70x70 : S_.BroadcastsInDim S70x70 (![] : Fin 0 → Fin S70x70.rank)
  reducesTo_S70x70_S_d0_1 : S70x70.ReducesTo [0, 1] S_
  bcast_S_S70 : S_.BroadcastsInDim S70 (![] : Fin 0 → Fin S70.rank)
  reducesTo_S70_S_d0 : S70.ReducesTo [0] S_
  bcast_S_S77x11 : S_.BroadcastsInDim S77x11 (![] : Fin 0 → Fin S77x11.rank)
  reducesTo_S77x11_S_d0_1 : S77x11.ReducesTo [0, 1] S_
  bcast_S_S11 : S_.BroadcastsInDim S11 (![] : Fin 0 → Fin S11.rank)
  reducesTo_S11_S_d0 : S11.ReducesTo [0] S_

variable [Facts]

def fn_part2 {F : FTy → Type} [FloatOps F] (main_arg8 : FVec F S77x11 .f32) (main_arg9 : FVec F S11 .f32) (main_v33 : IVec S_ 1) : IVec S_ 1 :=
  let main_v34 : FVec F S77x11 .f32 := Host.absf main_arg8
  let main_cst_12 : FVec F S_ .f32 := constant S_ .f32 0x7F800000#32
  let main_v35 : FVec F S77x11 .f32 := broadcastInDim S77x11 ![] bcast_S_S77x11 main_cst_12
  let main_v36 : IVec S77x11 1 := cmpf .olt main_v34 main_v35
  let main_c_13 : IVec S_ 1 := constantI S_ 1 1#1
  let main_v37 : IVec S_ 1 := (fun x v => Host.reduce IntOp.andi x v reducesTo_S77x11_S_d0_1 h_S_) main_v36 main_c_13
  let main_v38 : IVec S_ 1 := andi main_v33 main_v37
  let main_v39 : FVec F S11 .f32 := Host.absf main_arg9
  let main_cst_14 : FVec F S_ .f32 := constant S_ .f32 0x7F800000#32
  let main_v40 : FVec F S11 .f32 := broadcastInDim S11 ![] bcast_S_S11 main_cst_14
  let main_v41 : IVec S11 1 := cmpf .olt main_v39 main_v40
  let main_c_15 : IVec S_ 1 := constantI S_ 1 1#1
  let main_v42 : IVec S_ 1 := (fun x v => Host.reduce IntOp.andi x v reducesTo_S11_S_d0 h_S_) main_v41 main_c_15
  let main_v43 : IVec S_ 1 := andi main_v38 main_v42
  main_v43

def fn_part1 {F : FTy → Type} [FloatOps F] (main_arg5 : FVec F S70 .f32) (main_arg6 : FVec F S70x70 .f32) (main_arg7 : FVec F S70 .f32) (main_arg8 : FVec F S77x11 .f32) (main_arg9 : FVec F S11 .f32) (main_v13 : IVec S_ 1) (main_v16 : IVec S70x70 1) : IVec S_ 1 :=
  let main_c_5 : IVec S_ 1 := constantI S_ 1 1#1
  let main_v17 : IVec S_ 1 := (fun x v => Host.reduce IntOp.andi x v reducesTo_S70x70_S_d0_1 h_S_) main_v16 main_c_5
  let main_v18 : IVec S_ 1 := andi main_v13 main_v17
  let main_v19 : FVec F S70 .f32 := Host.absf main_arg5
  let main_cst_6 : FVec F S_ .f32 := constant S_ .f32 0x7F800000#32
  let main_v20 : FVec F S70 .f32 := broadcastInDim S70 ![] bcast_S_S70 main_cst_6
  let main_v21 : IVec S70 1 := cmpf .olt main_v19 main_v20
  let main_c_7 : IVec S_ 1 := constantI S_ 1 1#1
  let main_v22 : IVec S_ 1 := (fun x v => Host.reduce IntOp.andi x v reducesTo_S70_S_d0 h_S_) main_v21 main_c_7
  let main_v23 : IVec S_ 1 := andi main_v18 main_v22
  let main_v24 : FVec F S70x70 .f32 := Host.absf main_arg6
  let main_cst_8 : FVec F S_ .f32 := constant S_ .f32 0x7F800000#32
  let main_v25 : FVec F S70x70 .f32 := broadcastInDim S70x70 ![] bcast_S_S70x70 main_cst_8
  let main_v26 : IVec S70x70 1 := cmpf .olt main_v24 main_v25
  let main_c_9 : IVec S_ 1 := constantI S_ 1 1#1
  let main_v27 : IVec S_ 1 := (fun x v => Host.reduce IntOp.andi x v reducesTo_S70x70_S_d0_1 h_S_) main_v26 main_c_9
  let main_v28 : IVec S_ 1 := andi main_v23 main_v27
  let main_v29 : FVec F S70 .f32 := Host.absf main_arg7
  let main_cst_10 : FVec F S_ .f32 := constant S_ .f32 0x7F800000#32
  let main_v30 : FVec F S70 .f32 := broadcastInDim S70 ![] bcast_S_S70 main_cst_10
  let main_v31 : IVec S70 1 := cmpf .olt main_v29 main_v30
  let main_c_11 : IVec S_ 1 := constantI S_ 1 1#1
  let main_v32 : IVec S_ 1 := (fun x v => Host.reduce IntOp.andi x v reducesTo_S70_S_d0 h_S_) main_v31 main_c_11
  let main_v33 : IVec S_ 1 := andi main_v28 main_v32
  fn_part2 (F := F) main_arg8 main_arg9 main_v33

def fn {F : FTy → Type} [FloatOps F] (main_arg0 : IVec S8192x64 32) (main_arg1 : FVec F S8192x64x64 .f32) (main_arg2 : FVec F S8192x7 .f32) (main_arg3 : FVec F S10000x70 .f32) (main_arg4 : FVec F S70x70 .f32) (main_arg5 : FVec F S70 .f32) (main_arg6 : FVec F S70x70 .f32) (main_arg7 : FVec F S70 .f32) (main_arg8 : FVec F S77x11 .f32) (main_arg9 : FVec F S11 .f32) : IVec S_ 1 :=
  let main_v0 : FVec F S8192x64x64 .f32 := Host.absf main_arg1
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x7 .f32 := Host.absf main_arg2
  let main_cst_0 : FVec F S_ .f32 := constant S_ .f32 0x7F800000#32
  let main_v5 : FVec F S8192x7 .f32 := broadcastInDim S8192x7 ![] bcast_S_S8192x7 main_cst_0
  let main_v6 : IVec S8192x7 1 := cmpf .olt main_v4 main_v5
  let main_c_1 : IVec S_ 1 := constantI S_ 1 1#1
  let main_v7 : IVec S_ 1 := (fun x v => Host.reduce IntOp.andi x v reducesTo_S8192x7_S_d0_1 h_S_) main_v6 main_c_1
  let main_v8 : IVec S_ 1 := andi main_v3 main_v7
  let main_v9 : FVec F S10000x70 .f32 := Host.absf main_arg3
  let main_cst_2 : FVec F S_ .f32 := constant S_ .f32 0x7F800000#32
  let main_v10 : FVec F S10000x70 .f32 := broadcastInDim S10000x70 ![] bcast_S_S10000x70 main_cst_2
  let main_v11 : IVec S10000x70 1 := cmpf .olt main_v9 main_v10
  let main_c_3 : IVec S_ 1 := constantI S_ 1 1#1
  let main_v12 : IVec S_ 1 := (fun x v => Host.reduce IntOp.andi x v reducesTo_S10000x70_S_d0_1 h_S_) main_v11 main_c_3
  let main_v13 : IVec S_ 1 := andi main_v8 main_v12
  let main_v14 : FVec F S70x70 .f32 := Host.absf main_arg4
  let main_cst_4 : FVec F S_ .f32 := constant S_ .f32 0x7F800000#32
  let main_v15 : FVec F S70x70 .f32 := broadcastInDim S70x70 ![] bcast_S_S70x70 main_cst_4
  let main_v16 : IVec S70x70 1 := cmpf .olt main_v14 main_v15
  fn_part1 (F := F) main_arg5 main_arg6 main_arg7 main_arg8 main_arg9 main_v13 main_v16
-- ==== Kernel.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S_ : Shape := ⟨0, ![]⟩
abbrev S8192x64x1 : Shape := ⟨3, ![8192, 64, 1]⟩
abbrev S8192x64x70 : Shape := ⟨3, ![8192, 64, 70]⟩
abbrev S70x11 : Shape := ⟨2, ![70, 11]⟩
abbrev S7x11 : Shape := ⟨2, ![7, 11]⟩
abbrev S8192x11 : Shape := ⟨2, ![8192, 11]⟩
abbrev S128x64x70 : Shape := ⟨3, ![128, 64, 70]⟩
abbrev S128x64x64 : Shape := ⟨3, ![128, 64, 64]⟩
abbrev S128x7 : Shape := ⟨2, ![128, 7]⟩
abbrev S128x11 : Shape := ⟨2, ![128, 11]⟩
abbrev S8192x70 : Shape := ⟨2, ![8192, 70]⟩
abbrev S1x70 : Shape := ⟨2, ![1, 70]⟩
abbrev S128x70 : Shape := ⟨2, ![128, 70]⟩
abbrev S1x11 : Shape := ⟨2, ![1, 11]⟩

abbrev nBuf : Space → Nat
  | .hbm => 22
  | .vmem => 15
  | .smem => 0
  | _ => 0

abbrev bufTy : (tb : Table) → Fin (tcTables nBuf tb) → BufTy
  | .hbm, ⟨0, _⟩ => ⟨S8192x64, .i32⟩
  | .hbm, ⟨1, _⟩ => ⟨S8192x64x64, .f32⟩
  | .hbm, ⟨2, _⟩ => ⟨S8192x7, .f32⟩
  | .hbm, ⟨3, _⟩ => ⟨S10000x70, .f32⟩
  | .hbm, ⟨4, _⟩ => ⟨S70x70, .f32⟩
  | .hbm, ⟨5, _⟩ => ⟨S70, .f32⟩
  | .hbm, ⟨6, _⟩ => ⟨S70x70, .f32⟩
  | .hbm, ⟨7, _⟩ => ⟨S70, .f32⟩
  | .hbm, ⟨8, _⟩ => ⟨S77x11, .f32⟩
  | .hbm, ⟨9, _⟩ => ⟨S11, .f32⟩
  | .hbm, ⟨10, _⟩ => ⟨S_, .i32⟩
  | .hbm, ⟨11, _⟩ => ⟨S8192x64, .i32⟩
  | .hbm, ⟨12, _⟩ => ⟨S8192x64, .i1⟩
  | .hbm, ⟨13, _⟩ => ⟨S_, .i32⟩
  | .hbm, ⟨14, _⟩ => ⟨S8192x64, .i32⟩
  | .hbm, ⟨15, _⟩ => ⟨S8192x64, .i32⟩
  | .hbm, ⟨16, _⟩ => ⟨S8192x64, .i32⟩
  | .hbm, ⟨17, _⟩ => ⟨S8192x64x1, .i32⟩
  | .hbm, ⟨18, _⟩ => ⟨S8192x64x70, .f32⟩
  | .hbm, ⟨19, _⟩ => ⟨S70x11, .f32⟩
  | .hbm, ⟨20, _⟩ => ⟨S7x11, .f32⟩
  | .hbm, ⟨21, _⟩ => ⟨S8192x11, .f32⟩
  | .local _ .vmem, ⟨0, _⟩ => ⟨S128x64x70, .f32⟩
  | .local _ .vmem, ⟨1, _⟩ => ⟨S128x64x70, .f32⟩
  | .local _ .vmem, ⟨2, _⟩ => ⟨S128x64x64, .f32⟩
  | .local _ .vmem, ⟨3, _⟩ => ⟨S128x64x64, .f32⟩
  | .local _ .vmem, ⟨4, _⟩ => ⟨S128x7, .f32⟩
  | .local _ .vmem, ⟨5, _⟩ => ⟨S128x7, .f32⟩
  | .local _ .vmem, ⟨6, _⟩ => ⟨S70x70, .f32⟩
  | .local _ .vmem, ⟨7, _⟩ => ⟨S70, .f32⟩
  | .local _ .vmem, ⟨8, _⟩ => ⟨S70x70, .f32⟩
  | .local _ .vmem, ⟨9, _⟩ => ⟨S70, .f32⟩
  | .local _ .vmem, ⟨10, _⟩ => ⟨S70x11, .f32⟩
  | .local _ .vmem, ⟨11, _⟩ => ⟨S7x11, .f32⟩
  | .local _ .vmem, ⟨12, _⟩ => ⟨S11, .f32⟩
  | .local _ .vmem, ⟨13, _⟩ => ⟨S128x11, .f32⟩
  | .local _ .vmem, ⟨14, _⟩ => ⟨S128x11, .f32⟩
  | _, _ => ⟨S8192x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x70 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S70x70 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S70 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S70x70 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S70 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S70x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x11 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x11 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  slices_S77x11_S70x11_0_0 : S77x11.Slices ![0, 0] S70x11
  slices_S77x11_S7x11_70_0 : S77x11.Slices ![70, 0] S7x11
  inb_S128x64x64_S128x64x64_0_0_0 : ∀ a, (![0, 0, 0] : Fin 3 → Nat) a + S128x64x64.size a ≤ S128x64x64.size a
  h_S128x64x64 : 0 < S128x64x64.numel
  bitsLt_bf16_f32 : FTy.bits .bf16 < FTy.bits .f32
  inb_S128x64x70_S128x64x70_0_0_0 : ∀ a, (![0, 0, 0] : Fin 3 → Nat) a + S128x64x70.size a ≤ S128x64x70.size a
  h_S128x64x70 : 0 < S128x64x70.numel
  shapeCasts_S128x64x70_S128x64x70 : S128x64x70.ShapeCasts S128x64x70
  inb_S70x70_S70x70_0_0 : ∀ a, (![0, 0] : Fin 2 → Nat) a + S70x70.size a ≤ S70x70.size a
  h_S70x70 : 0 < S70x70.numel
  inb_S70_S70_0 : ∀ a, (![0] : Fin 1 → Nat) a + S70.size a ≤ S70.size a
  h_S70 : 0 < S70.numel
  shapeCasts_S128x64x70_S8192x70 : S128x64x70.ShapeCasts S8192x70
  shapeCasts_S70_S1x70 : S70.ShapeCasts S1x70
  broadcasts_S1x70_S8192x70 : S1x70.Broadcasts S8192x70
  shapeCasts_S8192x70_S128x64x70 : S8192x70.ShapeCasts S128x64x70
  reduces_S128x64x70_S128x70 : S128x64x70.Reduces [1] S128x70
  inb_S128x7_S128x7_0_0 : ∀ a, (![0, 0] : Fin 2 → Nat) a + S128x7.size a ≤ S128x7.size a
  h_S128x7 : 0 < S128x7.numel
  inb_S70x11_S70x11_0_0 : ∀ a, (![0, 0] : Fin 2 → Nat) a + S70x11.size a ≤ S70x11.size a
  h_S70x11 : 0 < S70x11.numel
  shapeCasts_S70x11_S70x11 : S70x11.ShapeCasts S70x11
  inb_S7x11_S7x11_0_0 : ∀ a, (![0, 0] : Fin 2 → Nat) a + S7x11.size a ≤ S7x11.size a
  h_S7x11 : 0 < S7x11.numel
  shapeCasts_S7x11_S7x11 : S7x11.ShapeCasts S7x11
  inb_S11_S11_0 : ∀ a, (![0] : Fin 1 → Nat) a + S11.size a ≤ S11.size a
  h_S11 : 0 < S11.numel
  shapeCasts_S11_S1x11 : S11.ShapeCasts S1x11
  broadcasts_S1x11_S128x11 : S1x11.Broadcasts S128x11
  inb_S128x11_S128x11_0_0 : ∀ a, (![0, 0] : Fin 2 → Nat) a + S128x11.size a ≤ S128x11.size a
  h_S128x11 : 0 < S128x11.numel
  gather_S10000x70_S8192x64x1_S8192x64x70_2_0_n_n_0_2_170_wf : GatherDims.WF S10000x70 S8192x64x1 S8192x64x70 [2] [0] [] [0] [] 2 ![1, 70]
  dot_S8192x70_S70x70_S8192x70_1_0_0_1_n_n_wf : DotDims.WF S8192x70 S70x70 S8192x70 [1] [0] [0] [1] [] []
  dot_S128x64x64_S128x64x70_S128x64x70_2_1_1_2_0_0_wf : DotDims.WF S128x64x64 S128x64x70 S128x64x70 [2] [1] [1] [2] [0] [0]
  dot_S128x70_S70x11_S128x11_1_0_0_1_n_n_wf : DotDims.WF S128x70 S70x11 S128x11 [1] [0] [0] [1] [] []
  dot_S128x7_S7x11_S128x11_1_0_0_1_n_n_wf : DotDims.WF S128x7 S7x11 S128x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x70.size a ≤ S8192x64x70.size a
  hwx0_0 : ∀ i : grid0.Coords, EltTy.bits .f32 = 32 ∨ (Rect.block (s := S8192x64x70) S128x64x70.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x7.size a ≤ S8192x7.size a
  hwx0_2 : ∀ i : grid0.Coords, EltTy.bits .f32 = 32 ∨ (Rect.block (s := S8192x7) S128x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S70x70.size a ≤ S70x70.size a
  hwx0_3 : ∀ i : grid0.Coords, EltTy.bits .f32 = 32 ∨ (Rect.block (s := S70x70) S70x70.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S70.size a ≤ S70.size a
  hwx0_4 : ∀ i : grid0.Coords, EltTy.bits .f32 = 32 ∨ (Rect.block (s := S70) S70.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S70x70.size a ≤ S70x70.size a
  hwx0_5 : ∀ i : grid0.Coords, EltTy.bits .f32 = 32 ∨ (Rect.block (s := S70x70) S70x70.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S70.size a ≤ S70.size a
  hwx0_6 : ∀ i : grid0.Coords, EltTy.bits .f32 = 32 ∨ (Rect.block (s := S70) S70.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S70x11.size a ≤ S70x11.size a
  hwx0_7 : ∀ i : grid0.Coords, EltTy.bits .f32 = 32 ∨ (Rect.block (s := S70x11) S70x11.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7x11.size a ≤ S7x11.size a
  hwx0_8 : ∀ i : grid0.Coords, EltTy.bits .f32 = 32 ∨ (Rect.block (s := S7x11) S7x11.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S11.size a ≤ S11.size a
  hwx0_9 : ∀ i : grid0.Coords, EltTy.bits .f32 = 32 ∨ (Rect.block (s := S11) S11.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x11.size a ≤ S8192x11.size a
  hwx0_10 : ∀ i : grid0.Coords, EltTy.bits .f32 = 32 ∨ (Rect.block (s := S8192x11) S128x11.size (cc0_transform_10 i) (hinb0_10 i)).WholeWords (EltTy.packing .f32)

variable [Facts₀]

def gather_S10000x70_S8192x64x1_S8192x64x70_2_0_n_n_0_2_170 : GatherDims S10000x70 S8192x64x1 S8192x64x70 where
  offsetDims := [2]
  collapsedSliceDims := [0]
  operandBatchingDims := []
  startIndicesBatchingDims := []
  startIndexMap := [0]
  indexVectorDim := 2
  sliceSizes := ![1, 70]
  wf := gather_S10000x70_S8192x64x1_S8192x64x70_2_0_n_n_0_2_170_wf
def dot_S8192x70_S70x70_S8192x70_1_0_0_1_n_n : DotDims S8192x70 S70x70 S8192x70 where
  lhsContracting := [1]
  rhsContracting := [0]
  lhsNonContracting := [0]
  rhsNonContracting := [1]
  lhsBatch := []
  rhsBatch := []
  wf := dot_S8192x70_S70x70_S8192x70_1_0_0_1_n_n_wf
def dot_S128x64x64_S128x64x70_S128x64x70_2_1_1_2_0_0 : DotDims S128x64x64 S128x64x70 S128x64x70 where
  lhsContracting := [2]
  rhsContracting := [1]
  lhsNonContracting := [1]
  rhsNonContracting := [2]
  lhsBatch := [0]
  rhsBatch := [0]
  wf := dot_S128x64x64_S128x64x70_S128x64x70_2_1_1_2_0_0_wf
def dot_S128x70_S70x11_S128x11_1_0_0_1_n_n : DotDims S128x70 S70x11 S128x11 where
  lhsContracting := [1]
  rhsContracting := [0]
  lhsNonContracting := [0]
  rhsNonContracting := [1]
  lhsBatch := []
  rhsBatch := []
  wf := dot_S128x70_S70x11_S128x11_1_0_0_1_n_n_wf
def dot_S128x7_S7x11_S128x11_1_0_0_1_n_n : DotDims S128x7 S7x11 S128x11 where
  lhsContracting := [1]
  rhsContracting := [0]
  lhsNonContracting := [0]
  rhsNonContracting := [1]
  lhsBatch := []
  rhsBatch := []
  wf := dot_S128x7_S7x11_S128x11_1_0_0_1_n_n_wf

abbrev win0_0 : Pipeline.Window sig grid0 :=
  Pipeline.Window.ofSpec (Memref.whole main_v6) S128x64x70.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S70x70.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S70.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S70x70.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S70.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S70x11.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S7x11.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S11.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S128x11.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x64x64 : Shape := ⟨3, ![8192, 64, 64]⟩
abbrev S8192x7 : Shape := ⟨2, ![8192, 7]⟩
abbrev S10000x70 : Shape := ⟨2, ![10000, 70]⟩
abbrev S70x70 : Shape := ⟨2, ![70, 70]⟩
abbrev S70 : Shape := ⟨1, ![70]⟩
abbrev S77x11 : Shape := ⟨2, ![77, 11]⟩
abbrev S11 : Shape := ⟨1, ![11]⟩
abbrev S_ : Shape := ⟨0, ![]⟩
abbrev S8192x64x1 : Shape := ⟨3, ![8192, 64, 1]⟩
abbrev S8192x64x70 : Shape := ⟨3, ![8192, 64, 70]⟩
abbrev S1x1x70 : Shape := ⟨3, ![1, 1, 70]⟩
abbrev S8192x70 : Shape := ⟨2, ![8192, 70]⟩
abbrev S8192x77 : Shape := ⟨2, ![8192, 77]⟩
abbrev S8192x11 : Shape := ⟨2, ![8192, 11]⟩
abbrev S1x11 : Shape := ⟨2, ![1, 11]⟩

abbrev nBuf : Space → Nat
  | .hbm => 42
  | .vmem => 0
  | .smem => 0
  | _ => 0

abbrev bufTy : (tb : Table) → Fin (tcTables nBuf tb) → BufTy
  | .hbm, ⟨0, _⟩ => ⟨S8192x64, .i32⟩
  | .hbm, ⟨1, _⟩ => ⟨S8192x64x64, .f32⟩
  | .hbm, ⟨2, _⟩ => ⟨S8192x7, .f32⟩
  | .hbm, ⟨3, _⟩ => ⟨S10000x70, .f32⟩
  | .hbm, ⟨4, _⟩ => ⟨S70x70, .f32⟩
  | .hbm, ⟨5, _⟩ => ⟨S70, .f32⟩
  | .hbm, ⟨6, _⟩ => ⟨S70x70, .f32⟩
  | .hbm, ⟨7, _⟩ => ⟨S70, .f32⟩
  | .hbm, ⟨8, _⟩ => ⟨S77x11, .f32⟩
  | .hbm, ⟨9, _⟩ => ⟨S11, .f32⟩
  | .hbm, ⟨10, _⟩ => ⟨S_, .i32⟩
  | .hbm, ⟨11, _⟩ => ⟨S8192x64, .i32⟩
  | .hbm, ⟨12, _⟩ => ⟨S8192x64, .i1⟩
  | .hbm, ⟨13, _⟩ => ⟨S_, .i32⟩
  | .hbm, ⟨14, _⟩ => ⟨S8192x64, .i32⟩
  | .hbm, ⟨15, _⟩ => ⟨S8192x64, .i32⟩
  | .hbm, ⟨16, _⟩ => ⟨S8192x64, .i32⟩
  | .hbm, ⟨17, _⟩ => ⟨S8192x64x1, .i32⟩
  | .hbm, ⟨18, _⟩ => ⟨S8192x64x70, .f32⟩
  | .hbm, ⟨19, _⟩ => ⟨S8192x64x70, .f32⟩
  | .hbm, ⟨20, _⟩ => ⟨S1x1x70, .f32⟩
  | .hbm, ⟨21, _⟩ => ⟨S8192x64x70, .f32⟩
  | .hbm, ⟨22, _⟩ => ⟨S8192x64x70, .f32⟩
  | .hbm, ⟨23, _⟩ => ⟨S_, .f32⟩
  | .hbm, ⟨24, _⟩ => ⟨S8192x64x70, .f32⟩
  | .hbm, ⟨25, _⟩ => ⟨S8192x64x70, .f32⟩
  | .hbm, ⟨26, _⟩ => ⟨S8192x64x70, .f32⟩
  | .hbm, ⟨27, _⟩ => ⟨S8192x64x70, .f32⟩
  | .hbm, ⟨28, _⟩ => ⟨S1x1x70, .f32⟩
  | .hbm, ⟨29, _⟩ => ⟨S8192x64x70, .f32⟩
  | .hbm, ⟨30, _⟩ => ⟨S8192x64x70, .f32⟩
  | .hbm, ⟨31, _⟩ => ⟨S_, .f32⟩
  | .hbm, ⟨32, _⟩ => ⟨S8192x64x70, .f32⟩
  | .hbm, ⟨33, _⟩ => ⟨S8192x64x70, .f32⟩
  | .hbm, ⟨34, _⟩ => ⟨S8192x64x70, .f32⟩
  | .hbm, ⟨35, _⟩ => ⟨S_, .f32⟩
  | .hbm, ⟨36, _⟩ => ⟨S8192x70, .f32⟩
  | .hbm, ⟨37, _⟩ => ⟨S8192x77, .f32⟩
  | .hbm, ⟨38, _⟩ => ⟨S8192x11, .f32⟩
  | .hbm, ⟨39, _⟩ => ⟨S1x11, .f32⟩
  | .hbm, ⟨40, _⟩ => ⟨S8192x11, .f32⟩
  | .hbm, ⟨41, _⟩ => ⟨S8192x11, .f32⟩
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S70_S1x1x70_2 : S70.BroadcastsInDim S1x1x70 (![2] : Fin 1 → Fin S1x1x70.rank)
  bcast_S1x1x70_S8192x64x70_0_1_2 : S1x1x70.BroadcastsInDim S8192x64x70 (![0, 1, 2] : Fin 3 → Fin S8192x64x70.rank)
  bcast_S_S8192x64x70 : S_.BroadcastsInDim S8192x64x70 (![] : Fin 0 → Fin S8192x64x70.rank)
  reducesTo_S8192x64x70_S8192x70_d1 : S8192x64x70.ReducesTo [1] S8192x70
  h_S_ : 0 < S_.numel
  concatenates_S8192x70_S8192x7_S8192x77_d1 : Shape.Concatenates [S8192x70, S8192x7] S8192x77 1
  bcast_S11_S1x11_1 : S11.BroadcastsInDim S1x11 (![1] : Fin 1 → Fin S1x11.rank)
  bcast_S1x11_S8192x11_0_1 : S1x11.BroadcastsInDim S8192x11 (![0, 1] : Fin 2 → Fin S8192x11.rank)
  gather_S10000x70_S8192x64x1_S8192x64x70_2_0_n_n_0_2_170_wf : GatherDims.WF S10000x70 S8192x64x1 S8192x64x70 [2] [0] [] [0] [] 2 ![1, 70]
  dot_S8192x64x70_S70x70_S8192x64x70_2_0_01_1_n_n_wf : DotDims.WF S8192x64x70 S70x70 S8192x64x70 [2] [0] [0, 1] [1] [] []
  dot_S8192x64x64_S8192x64x70_S8192x64x70_2_1_1_2_0_0_wf : DotDims.WF S8192x64x64 S8192x64x70 S8192x64x70 [2] [1] [1] [2] [0] [0]
  dot_S8192x77_S77x11_S8192x11_1_0_0_1_n_n_wf : DotDims.WF S8192x77 S77x11 S8192x11 [1] [0] [0] [1] [] []

variable [Facts₀]

def gather_S10000x70_S8192x64x1_S8192x64x70_2_0_n_n_0_2_170 : GatherDims S10000x70 S8192x64x1 S8192x64x70 where
  offsetDims := [2]
  collapsedSliceDims := [0]
  operandBatchingDims := []
  startIndicesBatchingDims := []
  startIndexMap := [0]
  indexVectorDim := 2
  sliceSizes := ![1, 70]
  wf := gather_S10000x70_S8192x64x1_S8192x64x70_2_0_n_n_0_2_170_wf
def dot_S8192x64x70_S70x70_S8192x64x70_2_0_01_1_n_n : DotDims S8192x64x70 S70x70 S8192x64x70 where
  lhsContracting := [2]
  rhsContracting := [0]
  lhsNonContracting := [0, 1]
  rhsNonContracting := [1]
  lhsBatch := []
  rhsBatch := []
  wf := dot_S8192x64x70_S70x70_S8192x64x70_2_0_01_1_n_n_wf
def dot_S8192x64x64_S8192x64x70_S8192x64x70_2_1_1_2_0_0 : DotDims S8192x64x64 S8192x64x70 S8192x64x70 where
  lhsContracting := [2]
  rhsContracting := [1]
  lhsNonContracting := [1]
  rhsNonContracting := [2]
  lhsBatch := [0]
  rhsBatch := [0]
  wf := dot_S8192x64x64_S8192x64x70_S8192x64x70_2_1_1_2_0_0_wf
def dot_S8192x77_S77x11_S8192x11_1_0_0_1_n_n : DotDims S8192x77 S77x11 S8192x11 where
  lhsContracting := [1]
  rhsContracting := [0]
  lhsNonContracting := [0]
  rhsNonContracting := [1]
  lhsBatch := []
  rhsBatch := []
  wf := dot_S8192x77_S77x11_S8192x11_1_0_0_1_n_n_wf

class Facts : Prop extends Facts₀ where

variable [Facts]
-- ==== Proof.Spec.lean ====
/-
  The network both programs compute, written once over plain finite index types.

  A molecule `q` carries 64 atoms, each a 70-vector of features; `A q` is its 64 × 64 adjacency.
  One layer is a dense map with a rectifier, row by row, followed by mixing the rows through the adjacency:
    dense X w b q n d = max (∑ e, X q n e · w e d + b d) 0,        mix A H q n d = ∑ m, A q n m · H q m d.
  After two layers the atoms are summed (`pool`), and the read-out is an affine map of the pooled 70-vector
  and the molecule's 7 extra descriptors, the weight matrix given as its top 70 rows `wa` and bottom 7 rows `wb`:
    readout P S wa wb bp q c = (∑ k, P q k · wa k c + ∑ k, S q k · wb k c) + bp c.
  Every stage treats the molecules independently, so restricting the molecule index along any map commutes
  with the whole network definitionally; a block of molecules is computed by the same text as the whole batch.
  Sums and products are those of the extended reals; only commutativity and associativity of the sum are used,
  so no finiteness is needed anywhere.
-/
import Idealize.ShloMosaic.PureOps.Ideal
import Idealize.ShloMosaic.Lib.ValueIdx

noncomputable section

namespace Cert.Gnn

open Idealize.ShloMosaic Idealize.ShloMosaic.ValueIdx

variable {B : Type}

/-- A dense layer with bias and rectifier, applied to every atom's feature row. -/
def dense (X : B → Fin 64 → Fin 70 → EReal) (w : Fin 70 → Fin 70 → EReal) (b : Fin 70 → EReal) :
    B → Fin 64 → Fin 70 → EReal :=
  fun q n d => max ((∑ e : Fin 70, X q n e * w e d) + b d) 0

/-- Message passing: atom `n` receives the adjacency-weighted sum of all atoms' rows. -/
def mix (A : B → Fin 64 → Fin 64 → EReal) (H : B → Fin 64 → Fin 70 → EReal) : B → Fin 64 → Fin 70 → EReal :=
  fun q n d => ∑ m : Fin 64, A q n m * H q m d

/-- The sum of a molecule's atom rows. -/
def pool (Y : B → Fin 64 → Fin 70 → EReal) : B → Fin 70 → EReal :=
  fun q d => ∑ n : Fin 64, Y q n d

/-- The affine read-out of the pooled features and the extra descriptors, the weights split by rows. -/
def readout (P : B → Fin 70 → EReal) (S : B → Fin 7 → EReal) (wa : Fin 70 → Fin 11 → EReal)
    (wb : Fin 7 → Fin 11 → EReal) (bp : Fin 11 → EReal) : B → Fin 11 → EReal :=
  fun q c => ((∑ k : Fin 70, P q k * wa k c) + ∑ k : Fin 7, S q k * wb k c) + bp c

/-- Two layers, the pool and the read-out. -/
def net (X : B → Fin 64 → Fin 70 → EReal) (A : B → Fin 64 → Fin 64 → EReal) (S : B → Fin 7 → EReal)
    (w1 : Fin 70 → Fin 70 → EReal) (b1 : Fin 70 → EReal) (w2 : Fin 70 → Fin 70 → EReal) (b2 : Fin 70 → EReal)
    (wa : Fin 70 → Fin 11 → EReal) (wb : Fin 7 → Fin 11 → EReal) (bp : Fin 11 → EReal) : B → Fin 11 → EReal :=
  readout (pool (mix A (dense (mix A (dense X w1 b1)) w2 b2))) S wa wb bp

/-- Restricting the molecules along `f` commutes with the network. -/
theorem net_comp {B' : Type} (f : B' → B) (X : B → Fin 64 → Fin 70 → EReal) (A : B → Fin 64 → Fin 64 → EReal)
    (S : B → Fin 7 → EReal) (w1 : Fin 70 → Fin 70 → EReal) (b1 : Fin 70 → EReal) (w2 : Fin 70 → Fin 70 → EReal)
    (b2 : Fin 70 → EReal) (wa : Fin 70 → Fin 11 → EReal) (wb : Fin 7 → Fin 11 → EReal) (bp : Fin 11 → EReal) (q : B') :
    net (fun p => X (f p)) (fun p => A (f p)) (fun p => S (f p)) w1 b1 w2 b2 wa wb bp q
      = net X A S w1 b1 w2 b2 wa wb bp (f q) := rfl

/-- A sum over 77 = 70 + 7 terms is the sum of its first 70 and its last 7. -/
theorem sum_seventy_seven (f : Fin 77 → EReal) :
    ∑ k : Fin 77, f k
      = (∑ k : Fin 70, f ⟨k.val, by omega⟩) + ∑ k : Fin 7, f ⟨70 + k.val, by omega⟩ :=
  Fin.sum_univ_add (a := 70) (b := 7) f

/-- The top 70 rows of a 77 × 11 matrix, and its bottom 7 rows. -/
def topRows (wp : (⟨2, ![77, 11]⟩ : Shape).Idx → EReal) : Fin 70 → Fin 11 → EReal :=
  fun k c => wp (ix2 ⟨k.val, by omega⟩ c)
def bottomRows (wp : (⟨2, ![77, 11]⟩ : Shape).Idx → EReal) : Fin 7 → Fin 11 → EReal :=
  fun k c => wp (ix2 ⟨70 + k.val, by omega⟩ c)

/-- The whole batch's result array: entry (b, c) is the network's output `c` for molecule `b`, the operands read off
    the argument arrays (features [8192, 64, 70], adjacency [8192, 64, 64], descriptors [8192, 7], the layers'
    weights and biases, the read-out's [77, 11] matrix by its top and bottom rows, and its bias). -/
def G (X : (⟨3, ![8192, 64, 70]⟩ : Shape).Idx → EReal) (A : (⟨3, ![8192, 64, 64]⟩ : Shape).Idx → EReal)
    (S : (⟨2, ![8192, 7]⟩ : Shape).Idx → EReal) (w1 : (⟨2, ![70, 70]⟩ : Shape).Idx → EReal)
    (b1 : (⟨1, ![70]⟩ : Shape).Idx → EReal) (w2 : (⟨2, ![70, 70]⟩ : Shape).Idx → EReal)
    (b2 : (⟨1, ![70]⟩ : Shape).Idx → EReal) (wp : (⟨2, ![77, 11]⟩ : Shape).Idx → EReal)
    (bp : (⟨1, ![11]⟩ : Shape).Idx → EReal) : (⟨2, ![8192, 11]⟩ : Shape).Idx → EReal :=
  fun i => net (fun q n e => X (ix3 q n e)) (fun q n m => A (ix3 q n m)) (fun q k => S (ix2 q k))
    (fun e d => w1 (ix2 e d)) (fun d => b1 (ix1 d)) (fun e d => w2 (ix2 e d)) (fun d => b2 (ix1 d))
    (topRows wp) (bottomRows wp) (fun c => bp (ix1 c)) (i 0) (i 1)

end Cert.Gnn

end
-- ==== Proof.KernelOps.lean ====
/-
  The kernel's four matrix products read at an output index, at the ideal values: into a zero accumulator each is
  the plain sum over its one contracted axis of the products of the operands' entries.
-/
import proofs.«155086_j63797444214829_1_alg».proof.KernelIdeal
import Idealize.ShloMosaic.Lib.ValueIdx
import Idealize.ShloMosaic.Lib.Pipeline.Value
import Idealize.ShloMosaic.PureOps.Ideal.Laws

noncomputable section

namespace Cert.KernelIdeal.Ops

open Cert.KernelIdeal Idealize.ShloMosaic Idealize.ShloMosaic.ValueIdx

variable [Facts]
open Facts₀ Facts

/-! The operand indices of this product, one axis at a time. -/
theorem lhs_rows_0 (i : S8192x70.Idx) (q : dot_S8192x70_S70x70_S8192x70_1_0_0_1_n_n.contr.Idx) :
    (dot_S8192x70_S70x70_S8192x70_1_0_0_1_n_n.lhsIdx i q 0).val = (i 0).val := by
  unfold DotDims.lhsIdx
  rw [dif_neg (show ¬(0 : Fin S8192x70.rank) ∈ dot_S8192x70_S70x70_S8192x70_1_0_0_1_n_n.lhsBatch from List.not_mem_nil), dif_pos (show (0 : Fin S8192x70.rank) ∈ dot_S8192x70_S70x70_S8192x70_1_0_0_1_n_n.lhsNonContracting from List.mem_singleton.mpr rfl)]
  rfl
theorem lhs_rows_1 (i : S8192x70.Idx) (q : dot_S8192x70_S70x70_S8192x70_1_0_0_1_n_n.contr.Idx) :
    (dot_S8192x70_S70x70_S8192x70_1_0_0_1_n_n.lhsIdx i q 1).val = (q ⟨0, Nat.one_pos⟩).val :=
  dot_S8192x70_S70x70_S8192x70_1_0_0_1_n_n.lhsIdx_val_of_single rfl i q
theorem rhs_rows_0 (i : S8192x70.Idx) (q : dot_S8192x70_S70x70_S8192x70_1_0_0_1_n_n.contr.Idx) :
    (dot_S8192x70_S70x70_S8192x70_1_0_0_1_n_n.rhsIdx i q 0).val = (q ⟨0, Nat.one_pos⟩).val :=
  dot_S8192x70_S70x70_S8192x70_1_0_0_1_n_n.rhsIdx_val_of_single rfl i q
theorem rhs_rows_1 (i : S8192x70.Idx) (q : dot_S8192x70_S70x70_S8192x70_1_0_0_1_n_n.contr.Idx) :
    (dot_S8192x70_S70x70_S8192x70_1_0_0_1_n_n.rhsIdx i q 1).val = (i 1).val := by
  unfold DotDims.rhsIdx
  rw [dif_neg (show ¬(1 : Fin S70x70.rank) ∈ dot_S8192x70_S70x70_S8192x70_1_0_0_1_n_n.rhsBatch from List.not_mem_nil), dif_pos (show (1 : Fin S70x70.rank) ∈ dot_S8192x70_S70x70_S8192x70_1_0_0_1_n_n.rhsNonContracting from List.mem_singleton.mpr rfl)]
  rfl

/-- [8192, 70] × [70, 70]: every atom row of the block against a layer's weights. -/
theorem rows_matmul_apply (Lh : FVec Ideal S8192x70 .bf16) (Rh : FVec Ideal S70x70 .bf16) (r : Fin 8192) (d : Fin 70) :
    matmul dot_S8192x70_S70x70_S8192x70_1_0_0_1_n_n none Lh Rh (constant S8192x70 .f32 0x00000000#32) (ix2 r d)
      = ∑ e : Fin 70, Lh (ix2 r e) * Rh (ix2 e d) := by
  show FloatOps.matmul _ _ _ _ _ _ = _
  rw [Ideal.matmul_constant_zero_apply, ← Equiv.sum_comp (ValueIdx.contrEquiv1 dot_S8192x70_S70x70_S8192x70_1_0_0_1_n_n 70 rfl rfl).symm]
  refine Finset.sum_congr rfl fun e _ => ?_
  have hk := ValueIdx.contrEquiv1_symm_val dot_S8192x70_S70x70_S8192x70_1_0_0_1_n_n 70 rfl rfl e
  have el : dot_S8192x70_S70x70_S8192x70_1_0_0_1_n_n.lhsIdx (ix2 r d) ((ValueIdx.contrEquiv1 dot_S8192x70_S70x70_S8192x70_1_0_0_1_n_n 70 rfl rfl).symm e) = ix2 r e := funext fun a => Fin.ext (by
    match a with
    | ⟨0, _⟩ => exact lhs_rows_0 _ _
    | ⟨1, _⟩ => exact (lhs_rows_1 _ _).trans hk)
  have er : dot_S8192x70_S70x70_S8192x70_1_0_0_1_n_n.rhsIdx (ix2 r d) ((ValueIdx.contrEquiv1 dot_S8192x70_S70x70_S8192x70_1_0_0_1_n_n 70 rfl rfl).symm e) = ix2 e d := funext fun a => Fin.ext (by
    match a with
    | ⟨0, _⟩ => exact (rhs_rows_0 _ _).trans hk
    | ⟨1, _⟩ => exact rhs_rows_1 _ _)
  rw [el, er]

/-! The operand indices of this product, one axis at a time. -/
theorem lhs_batch_0 (i : S128x64x70.Idx) (q : dot_S128x64x64_S128x64x70_S128x64x70_2_1_1_2_0_0.contr.Idx) :
    (dot_S128x64x64_S128x64x70_S128x64x70_2_1_1_2_0_0.lhsIdx i q 0).val = (i 0).val := by
  unfold DotDims.lhsIdx
  rw [dif_pos (show (0 : Fin S128x64x64.rank) ∈ dot_S128x64x64_S128x64x70_S128x64x70_2_1_1_2_0_0.lhsBatch from List.mem_singleton.mpr rfl)]
  rfl
theorem lhs_batch_1 (i : S128x64x70.Idx) (q : dot_S128x64x64_S128x64x70_S128x64x70_2_1_1_2_0_0.contr.Idx) :
    (dot_S128x64x64_S128x64x70_S128x64x70_2_1_1_2_0_0.lhsIdx i q 1).val = (i 1).val := by
  unfold DotDims.lhsIdx
  rw [dif_neg (show ¬(1 : Fin S128x64x64.rank) ∈ dot_S128x64x64_S128x64x70_S128x64x70_2_1_1_2_0_0.lhsBatch from fun h => absurd (List.mem_singleton.mp h) (by decide)), dif_pos (show (1 : Fin S128x64x64.rank) ∈ dot_S128x64x64_S128x64x70_S128x64x70_2_1_1_2_0_0.lhsNonContracting from List.mem_singleton.mpr rfl)]
  rfl
theorem lhs_batch_2 (i : S128x64x70.Idx) (q : dot_S128x64x64_S128x64x70_S128x64x70_2_1_1_2_0_0.contr.Idx) :
    (dot_S128x64x64_S128x64x70_S128x64x70_2_1_1_2_0_0.lhsIdx i q 2).val = (q ⟨0, Nat.one_pos⟩).val :=
  dot_S128x64x64_S128x64x70_S128x64x70_2_1_1_2_0_0.lhsIdx_val_of_single rfl i q
theorem rhs_batch_0 (i : S128x64x70.Idx) (q : dot_S128x64x64_S128x64x70_S128x64x70_2_1_1_2_0_0.contr.Idx) :
    (dot_S128x64x64_S128x64x70_S128x64x70_2_1_1_2_0_0.rhsIdx i q 0).val = (i 0).val := by
  unfold DotDims.rhsIdx
  rw [dif_pos (show (0 : Fin S128x64x70.rank) ∈ dot_S128x64x64_S128x64x70_S128x64x70_2_1_1_2_0_0.rhsBatch from List.mem_singleton.mpr rfl)]
  rfl
theorem rhs_batch_1 (i : S128x64x70.Idx) (q : dot_S128x64x64_S128x64x70_S128x64x70_2_1_1_2_0_0.contr.Idx) :
    (dot_S128x64x64_S128x64x70_S128x64x70_2_1_1_2_0_0.rhsIdx i q 1).val = (q ⟨0, Nat.one_pos⟩).val :=
  dot_S128x64x64_S128x64x70_S128x64x70_2_1_1_2_0_0.rhsIdx_val_of_single rfl i q
theorem rhs_batch_2 (i : S128x64x70.Idx) (q : dot_S128x64x64_S128x64x70_S128x64x70_2_1_1_2_0_0.contr.Idx) :
    (dot_S128x64x64_S128x64x70_S128x64x70_2_1_1_2_0_0.rhsIdx i q 2).val = (i 2).val := by
  unfold DotDims.rhsIdx
  rw [dif_neg (show ¬(2 : Fin S128x64x70.rank) ∈ dot_S128x64x64_S128x64x70_S128x64x70_2_1_1_2_0_0.rhsBatch from fun h => absurd (List.mem_singleton.mp h) (by decide)), dif_pos (show (2 : Fin S128x64x70.rank) ∈ dot_S128x64x64_S128x64x70_S128x64x70_2_1_1_2_0_0.rhsNonContracting from List.mem_singleton.mpr rfl)]
  rfl

/-- [128, 64, 64] × [128, 64, 70], batched over the molecule: adjacency times the atoms' rows. -/
theorem batch_matmul_apply (Lh : FVec Ideal S128x64x64 .bf16) (Rh : FVec Ideal S128x64x70 .bf16)
    (p : Fin 128) (n : Fin 64) (d : Fin 70) :
    matmul dot_S128x64x64_S128x64x70_S128x64x70_2_1_1_2_0_0 none Lh Rh (constant S128x64x70 .f32 0x00000000#32) (ix3 p n d)
      = ∑ k : Fin 64, Lh (ix3 p n k) * Rh (ix3 p k d) := by
  show FloatOps.matmul _ _ _ _ _ _ = _
  rw [Ideal.matmul_constant_zero_apply, ← Equiv.sum_comp (ValueIdx.contrEquiv1 dot_S128x64x64_S128x64x70_S128x64x70_2_1_1_2_0_0 64 rfl rfl).symm]
  refine Finset.sum_congr rfl fun k _ => ?_
  have hk := ValueIdx.contrEquiv1_symm_val dot_S128x64x64_S128x64x70_S128x64x70_2_1_1_2_0_0 64 rfl rfl k
  have el : dot_S128x64x64_S128x64x70_S128x64x70_2_1_1_2_0_0.lhsIdx (ix3 p n d) ((ValueIdx.contrEquiv1 dot_S128x64x64_S128x64x70_S128x64x70_2_1_1_2_0_0 64 rfl rfl).symm k) = ix3 p n k := funext fun a => Fin.ext (by
    match a with
    | ⟨0, _⟩ => exact lhs_batch_0 _ _
    | ⟨1, _⟩ => exact lhs_batch_1 _ _
    | ⟨2, _⟩ => exact (lhs_batch_2 _ _).trans hk)
  have er : dot_S128x64x64_S128x64x70_S128x64x70_2_1_1_2_0_0.rhsIdx (ix3 p n d) ((ValueIdx.contrEquiv1 dot_S128x64x64_S128x64x70_S128x64x70_2_1_1_2_0_0 64 rfl rfl).symm k) = ix3 p k d := funext fun a => Fin.ext (by
    match a with
    | ⟨0, _⟩ => exact rhs_batch_0 _ _
    | ⟨1, _⟩ => exact (rhs_batch_1 _ _).trans hk
    | ⟨2, _⟩ => exact rhs_batch_2 _ _)
  rw [el, er]

/-! The operand indices of this product, one axis at a time. -/
theorem lhs_pooled_0 (i : S128x11.Idx) (q : dot_S128x70_S70x11_S128x11_1_0_0_1_n_n.contr.Idx) :
    (dot_S128x70_S70x11_S128x11_1_0_0_1_n_n.lhsIdx i q 0).val = (i 0).val := by
  unfold DotDims.lhsIdx
  rw [dif_neg (show ¬(0 : Fin S128x70.rank) ∈ dot_S128x70_S70x11_S128x11_1_0_0_1_n_n.lhsBatch from List.not_mem_nil), dif_pos (show (0 : Fin S128x70.rank) ∈ dot_S128x70_S70x11_S128x11_1_0_0_1_n_n.lhsNonContracting from List.mem_singleton.mpr rfl)]
  rfl
theorem lhs_pooled_1 (i : S128x11.Idx) (q : dot_S128x70_S70x11_S128x11_1_0_0_1_n_n.contr.Idx) :
    (dot_S128x70_S70x11_S128x11_1_0_0_1_n_n.lhsIdx i q 1).val = (q ⟨0, Nat.one_pos⟩).val :=
  dot_S128x70_S70x11_S128x11_1_0_0_1_n_n.lhsIdx_val_of_single rfl i q
theorem rhs_pooled_0 (i : S128x11.Idx) (q : dot_S128x70_S70x11_S128x11_1_0_0_1_n_n.contr.Idx) :
    (dot_S128x70_S70x11_S128x11_1_0_0_1_n_n.rhsIdx i q 0).val = (q ⟨0, Nat.one_pos⟩).val :=
  dot_S128x70_S70x11_S128x11_1_0_0_1_n_n.rhsIdx_val_of_single rfl i q
theorem rhs_pooled_1 (i : S128x11.Idx) (q : dot_S128x70_S70x11_S128x11_1_0_0_1_n_n.contr.Idx) :
    (dot_S128x70_S70x11_S128x11_1_0_0_1_n_n.rhsIdx i q 1).val = (i 1).val := by
  unfold DotDims.rhsIdx
  rw [dif_neg (show ¬(1 : Fin S70x11.rank) ∈ dot_S128x70_S70x11_S128x11_1_0_0_1_n_n.rhsBatch from List.not_mem_nil), dif_pos (show (1 : Fin S70x11.rank) ∈ dot_S128x70_S70x11_S128x11_1_0_0_1_n_n.rhsNonContracting from List.mem_singleton.mpr rfl)]
  rfl

/-- [128, 70] × [70, 11]: the pooled features against the read-out's top rows. -/
theorem pooled_matmul_apply (Lh : FVec Ideal S128x70 .bf16) (Rh : FVec Ideal S70x11 .bf16) (p : Fin 128) (c : Fin 11) :
    matmul dot_S128x70_S70x11_S128x11_1_0_0_1_n_n none Lh Rh (constant S128x11 .f32 0x00000000#32) (ix2 p c)
      = ∑ k : Fin 70, Lh (ix2 p k) * Rh (ix2 k c) := by
  show FloatOps.matmul _ _ _ _ _ _ = _
  rw [Ideal.matmul_constant_zero_apply, ← Equiv.sum_comp (ValueIdx.contrEquiv1 dot_S128x70_S70x11_S128x11_1_0_0_1_n_n 70 rfl rfl).symm]
  refine Finset.sum_congr rfl fun k _ => ?_
  have hk := ValueIdx.contrEquiv1_symm_val dot_S128x70_S70x11_S128x11_1_0_0_1_n_n 70 rfl rfl k
  have el : dot_S128x70_S70x11_S128x11_1_0_0_1_n_n.lhsIdx (ix2 p c) ((ValueIdx.contrEquiv1 dot_S128x70_S70x11_S128x11_1_0_0_1_n_n 70 rfl rfl).symm k) = ix2 p k := funext fun a => Fin.ext (by
    match a with
    | ⟨0, _⟩ => exact lhs_pooled_0 _ _
    | ⟨1, _⟩ => exact (lhs_pooled_1 _ _).trans hk)
  have er : dot_S128x70_S70x11_S128x11_1_0_0_1_n_n.rhsIdx (ix2 p c) ((ValueIdx.contrEquiv1 dot_S128x70_S70x11_S128x11_1_0_0_1_n_n 70 rfl rfl).symm k) = ix2 k c := funext fun a => Fin.ext (by
    match a with
    | ⟨0, _⟩ => exact (rhs_pooled_0 _ _).trans hk
    | ⟨1, _⟩ => exact rhs_pooled_1 _ _)
  rw [el, er]

/-! The operand indices of this product, one axis at a time. -/
theorem lhs_extra_0 (i : S128x11.Idx) (q : dot_S128x7_S7x11_S128x11_1_0_0_1_n_n.contr.Idx) :
    (dot_S128x7_S7x11_S128x11_1_0_0_1_n_n.lhsIdx i q 0).val = (i 0).val := by
  unfold DotDims.lhsIdx
  rw [dif_neg (show ¬(0 : Fin S128x7.rank) ∈ dot_S128x7_S7x11_S128x11_1_0_0_1_n_n.lhsBatch from List.not_mem_nil), dif_pos (show (0 : Fin S128x7.rank) ∈ dot_S128x7_S7x11_S128x11_1_0_0_1_n_n.lhsNonContracting from List.mem_singleton.mpr rfl)]
  rfl
theorem lhs_extra_1 (i : S128x11.Idx) (q : dot_S128x7_S7x11_S128x11_1_0_0_1_n_n.contr.Idx) :
    (dot_S128x7_S7x11_S128x11_1_0_0_1_n_n.lhsIdx i q 1).val = (q ⟨0, Nat.one_pos⟩).val :=
  dot_S128x7_S7x11_S128x11_1_0_0_1_n_n.lhsIdx_val_of_single rfl i q
theorem rhs_extra_0 (i : S128x11.Idx) (q : dot_S128x7_S7x11_S128x11_1_0_0_1_n_n.contr.Idx) :
    (dot_S128x7_S7x11_S128x11_1_0_0_1_n_n.rhsIdx i q 0).val = (q ⟨0, Nat.one_pos⟩).val :=
  dot_S128x7_S7x11_S128x11_1_0_0_1_n_n.rhsIdx_val_of_single rfl i q
theorem rhs_extra_1 (i : S128x11.Idx) (q : dot_S128x7_S7x11_S128x11_1_0_0_1_n_n.contr.Idx) :
    (dot_S128x7_S7x11_S128x11_1_0_0_1_n_n.rhsIdx i q 1).val = (i 1).val := by
  unfold DotDims.rhsIdx
  rw [dif_neg (show ¬(1 : Fin S7x11.rank) ∈ dot_S128x7_S7x11_S128x11_1_0_0_1_n_n.rhsBatch from List.not_mem_nil), dif_pos (show (1 : Fin S7x11.rank) ∈ dot_S128x7_S7x11_S128x11_1_0_0_1_n_n.rhsNonContracting from List.mem_singleton.mpr rfl)]
  rfl

/-- [128, 7] × [7, 11]: the extra descriptors against the read-out's bottom rows. -/
theorem extra_matmul_apply (Lh : FVec Ideal S128x7 .bf16) (Rh : FVec Ideal S7x11 .bf16) (p : Fin 128) (c : Fin 11) :
    matmul dot_S128x7_S7x11_S128x11_1_0_0_1_n_n none Lh Rh (constant S128x11 .f32 0x00000000#32) (ix2 p c)
      = ∑ k : Fin 7, Lh (ix2 p k) * Rh (ix2 k c) := by
  show FloatOps.matmul _ _ _ _ _ _ = _
  rw [Ideal.matmul_constant_zero_apply, ← Equiv.sum_comp (ValueIdx.contrEquiv1 dot_S128x7_S7x11_S128x11_1_0_0_1_n_n 7 rfl rfl).symm]
  refine Finset.sum_congr rfl fun k _ => ?_
  have hk := ValueIdx.contrEquiv1_symm_val dot_S128x7_S7x11_S128x11_1_0_0_1_n_n 7 rfl rfl k
  have el : dot_S128x7_S7x11_S128x11_1_0_0_1_n_n.lhsIdx (ix2 p c) ((ValueIdx.contrEquiv1 dot_S128x7_S7x11_S128x11_1_0_0_1_n_n 7 rfl rfl).symm k) = ix2 p k := funext fun a => Fin.ext (by
    match a with
    | ⟨0, _⟩ => exact lhs_extra_0 _ _
    | ⟨1, _⟩ => exact (lhs_extra_1 _ _).trans hk)
  have er : dot_S128x7_S7x11_S128x11_1_0_0_1_n_n.rhsIdx (ix2 p c) ((ValueIdx.contrEquiv1 dot_S128x7_S7x11_S128x11_1_0_0_1_n_n 7 rfl rfl).symm k) = ix2 k c := funext fun a => Fin.ext (by
    match a with
    | ⟨0, _⟩ => exact (rhs_extra_0 _ _).trans hk
    | ⟨1, _⟩ => exact rhs_extra_1 _ _)
  rw [el, er]

end Cert.KernelIdeal.Ops

end
-- ==== Proof.Payload.lean ====
/-
  One grid point's stored block is the network applied to the point's input blocks.

  The stored value is read entry by entry. The two reshapes between [128, 64, 70] and [8192, 70] match entry
  (p, n, d) with entry (64 p + n, d); a bias row cast to one row and repeated over the rows reads the bias at the
  column; a change of format is the identity on extended reals. With these a dense layer of the block, the product
  with the adjacency, the sum over the atoms and the affine read-out are each read at an entry as the corresponding
  stage of the network, over any functions the operands are known to agree with, and the stages then compose.
-/
import proofs.«155086_j63797444214829_1_alg».proof.Proof.Gen.KernelIdeal.Skeleton
import proofs.«155086_j63797444214829_1_alg».proof.Proof.Spec
import proofs.«155086_j63797444214829_1_alg».proof.Proof.KernelOps
import Idealize.ShloMosaic.Lib.ValueLayout

noncomputable section

namespace Cert.KernelIdeal.Payload

open Cert.KernelIdeal Cert.KernelIdeal.Gen Idealize.ShloMosaic Idealize.ShloMosaic.ValueIdx

/-! ## The layout operations at an entry -/

section Casts
variable {α : Type}

/-- An [8192, 70] array cast to [128, 64, 70] reads, at (p, n, d), row 64 p + n at column d: both entries sit at
    row-major position (64 p + n) · 70 + d. -/
theorem split_apply (v : S8192x70.Idx → α) (h : S8192x70.ShapeCasts S128x64x70) (p : Fin 128) (n : Fin 64)
    (d : Fin 70) :
    shapeCast S128x64x70 v h (ix3 p n d) = v (ix2 (⟨64 * p.val + n.val, by omega⟩ : Fin 8192) d) :=
  shapeCast_apply v h _ _ (by
    rw [Shape.rowMajor_val_two, Shape.rowMajor_val_three]
    show (64 * p.val + n.val) * 70 + d.val = (p.val * 64 + n.val) * 70 + d.val
    omega)

/-- A [128, 64, 70] array cast to [8192, 70] reads, at row 64 p + n and column e, the entry (p, n, e). -/
theorem merge_apply (u : S128x64x70.Idx → α) (h : S128x64x70.ShapeCasts S8192x70) (p : Fin 128) (n : Fin 64)
    (e : Fin 70) :
    shapeCast S8192x70 u h (ix2 (⟨64 * p.val + n.val, by omega⟩ : Fin 8192) e) = u (ix3 p n e) :=
  shapeCast_apply u h _ _ (by
    rw [Shape.rowMajor_val_two, Shape.rowMajor_val_three]
    show (p.val * 64 + n.val) * 70 + e.val = (64 * p.val + n.val) * 70 + e.val
    omega)

/-- A 70-vector cast to one row and repeated over 8192 rows reads, at (r, d), the vector at d. -/
theorem bias70_apply (b : S70.Idx → α) (h2 : S70.ShapeCasts S1x70) (h3 : S1x70.Broadcasts S8192x70) (r : Fin 8192)
    (d : Fin 70) : broadcastTo S8192x70 (shapeCast S1x70 b h2) h3 (ix2 r d) = b (ix1 d) :=
  (broadcastTo_1b_ab_apply _ h3 r d).trans (shapeCast_a_1a_apply b h2 0 d)

/-- An 11-vector cast to one row and repeated over 128 rows reads, at (r, c), the vector at c. -/
theorem bias11_apply (b : S11.Idx → α) (h2 : S11.ShapeCasts S1x11) (h3 : S1x11.Broadcasts S128x11) (r : Fin 128)
    (c : Fin 11) : broadcastTo S128x11 (shapeCast S1x11 b h2) h3 (ix2 r c) = b (ix1 c) :=
  (broadcastTo_1b_ab_apply _ h3 r c).trans (shapeCast_a_1a_apply b h2 0 c)

end Casts

/-! ## The stages of the network at an entry -/

/-- A dense layer of a block: the block's 128 · 64 atom rows against the weights, plus the bias row, the maximum
    with zero, cut back into molecules. At (p, n, d) it is max (∑ e, Y p n e · W e d + b d) 0, for any X that the
    block Y agrees with entrywise. -/
theorem dense_apply (Y : FVec Ideal S128x64x70 .bf16) (W : FVec Ideal S70x70 .bf16) (b : FVec Ideal S70 .f32)
    (X : Fin 128 → Fin 64 → Fin 70 → EReal) (hY : ∀ p n e, Y (ix3 p n e) = X p n e)
    (h1 : S128x64x70.ShapeCasts S8192x70) (h2 : S70.ShapeCasts S1x70) (h3 : S1x70.Broadcasts S8192x70)
    (h4 : S8192x70.ShapeCasts S128x64x70) (p : Fin 128) (n : Fin 64) (d : Fin 70) :
    shapeCast S128x64x70
        (maximumf
          (addf (matmul dot_S8192x70_S70x70_S8192x70_1_0_0_1_n_n none (shapeCast S8192x70 Y h1) W
              (constant S8192x70 .f32 0x00000000#32))
            (broadcastTo S8192x70 (shapeCast S1x70 b h2) h3))
          (broadcast S8192x70 (Scalar.ofBits (F := Ideal) .f32 0x00000000#32))) h4 (ix3 p n d)
      = Cert.Gnn.dense X (fun e d => W (ix2 e d)) (fun d => b (ix1 d)) p n d := by
  rw [split_apply, maximumf_apply, addf_apply, broadcast_apply, Ops.rows_matmul_apply, bias70_apply]
  show max (_ + _) (Ideal.ofBits .f32 0x00000000#32) = max ((∑ e : Fin 70, X p n e * W (ix2 e d)) + b (ix1 d)) 0
  rw [Ideal.ofBits_zero_f32]
  refine congrArg (fun s => max (s + b (ix1 d)) 0) (Finset.sum_congr rfl fun e _ => ?_)
  rw [merge_apply, hY]

/-- The adjacency product of a block, batched over the molecule: at (p, n, d) it is ∑ m, A p n m · H p m d, for
    any functions the two operands agree with entrywise. -/
theorem mix_apply (A : FVec Ideal S128x64x64 .bf16) (H : FVec Ideal S128x64x70 .bf16)
    (Af : Fin 128 → Fin 64 → Fin 64 → EReal) (Hf : Fin 128 → Fin 64 → Fin 70 → EReal)
    (hA : ∀ p n m, A (ix3 p n m) = Af p n m) (hH : ∀ p m d, H (ix3 p m d) = Hf p m d) (p : Fin 128) (n : Fin 64)
    (d : Fin 70) :
    matmul dot_S128x64x64_S128x64x70_S128x64x70_2_1_1_2_0_0 none A H (constant S128x64x70 .f32 0x00000000#32)
        (ix3 p n d)
      = Cert.Gnn.mix Af Hf p n d := by
  rw [Ops.batch_matmul_apply]
  exact Finset.sum_congr rfl fun k _ => by rw [hA, hH]

/-- The sum of a block over its atom axis: at (p, d) it is ∑ n, V p n d; the index with n put back on the summed
    axis is (p, n, d), coordinate by coordinate. -/
theorem pool_apply (V : FVec Ideal S128x64x70 .f32) (Vf : Fin 128 → Fin 64 → Fin 70 → EReal)
    (hV : ∀ p n d, V (ix3 p n d) = Vf p n d) (h : S128x64x70.Reduces [1] S128x70) (hφ : FKind.Formats .f32)
    (hacc : (0x00000000#32 : BitVec 32) = FKind.add.neutral .f32 hφ) (p : Fin 128) (d : Fin 70) :
    multiReduction .add [1] S128x70 V 0x00000000#32 h hφ hacc (ix2 p d) = Cert.Gnn.pool Vf p d := by
  refine (Ideal.multiReduction_add_single V _ h hφ hacc (ix2 p d)).trans ?_
  show ∑ k : Fin 64, V (h.lift (ix2 p d) k) = ∑ k : Fin 64, Vf p k d
  refine Finset.sum_congr rfl fun k _ => ?_
  have hk : h.lift (ix2 p d) k = ix3 p k d := by
    funext a
    match a with
    | ⟨0, _⟩ => exact Fin.ext rfl
    | ⟨1, _⟩ => exact Fin.ext rfl
    | ⟨2, _⟩ => exact Fin.ext rfl
  rw [hk, hV]

/-- The affine read-out of a block: the pooled rows against the top weights plus the descriptors against the
    bottom weights plus the bias row. At (p, c) it is (∑ k, P p k · wa k c + ∑ k, S p k · wb k c) + b c, for any
    functions the four matrix operands agree with entrywise. -/
theorem readout_apply (P : FVec Ideal S128x70 .bf16) (Wa : FVec Ideal S70x11 .bf16) (Sx : FVec Ideal S128x7 .bf16)
    (Wb : FVec Ideal S7x11 .bf16) (b : FVec Ideal S11 .f32) (Pf : Fin 128 → Fin 70 → EReal)
    (Sf : Fin 128 → Fin 7 → EReal) (waf : Fin 70 → Fin 11 → EReal) (wbf : Fin 7 → Fin 11 → EReal)
    (hP : ∀ q k, P (ix2 q k) = Pf q k) (hS : ∀ q k, Sx (ix2 q k) = Sf q k) (hWa : ∀ k c, Wa (ix2 k c) = waf k c)
    (hWb : ∀ k c, Wb (ix2 k c) = wbf k c) (h2 : S11.ShapeCasts S1x11) (h3 : S1x11.Broadcasts S128x11)
    (p : Fin 128) (c : Fin 11) :
    addf
        (addf (matmul dot_S128x70_S70x11_S128x11_1_0_0_1_n_n none P Wa (constant S128x11 .f32 0x00000000#32))
          (matmul dot_S128x7_S7x11_S128x11_1_0_0_1_n_n none Sx Wb (constant S128x11 .f32 0x00000000#32)))
        (broadcastTo S128x11 (shapeCast S1x11 b h2) h3) (ix2 p c)
      = Cert.Gnn.readout Pf Sf waf wbf (fun c => b (ix1 c)) p c := by
  rw [addf_apply, addf_apply, Ops.pooled_matmul_apply, Ops.extra_matmul_apply, bias11_apply]
  have e1 : ∑ k : Fin 70, P (ix2 p k) * Wa (ix2 k c) = ∑ k : Fin 70, Pf p k * waf k c :=
    Finset.sum_congr rfl fun k _ => by rw [hP, hWa]
  have e2 : ∑ k : Fin 7, Sx (ix2 p k) * Wb (ix2 k c) = ∑ k : Fin 7, Sf p k * wbf k c :=
    Finset.sum_congr rfl fun k _ => by rw [hS, hWb]
  rw [e1, e2]
  rfl

/-! ## The stored value -/

/-- The pooled block: two layers (dense, then the adjacency product) of the feature block, summed over the atoms.
    Read from the outside in: the sum, the second layer's product and dense map, the first layer's, and last the
    feature block under a cast to its own shape. -/
theorem pay2_apply (x1 : Vec Ideal S128x64x64 .f32) (x0 : Vec Ideal S128x64x70 .f32) (x3 : Vec Ideal S70x70 .f32)
    (x4 : Vec Ideal S70 .f32) (x5 : Vec Ideal S70x70 .f32) (x6 : Vec Ideal S70 .f32) (p : Fin 128) (d : Fin 70) :
    k0_pay2 (F := Ideal) x1 x0 x3 x4 x5 x6 (ix2 p d)
      = Cert.Gnn.pool (Cert.Gnn.mix (fun q n m => x1 (ix3 q n m))
          (Cert.Gnn.dense (Cert.Gnn.mix (fun q n m => x1 (ix3 q n m))
            (Cert.Gnn.dense (fun q n e => x0 (ix3 q n e)) (fun e d => x3 (ix2 e d)) (fun d => x4 (ix1 d))))
            (fun e d => x5 (ix2 e d)) (fun d => x6 (ix1 d)))) p d := by
  unfold k0_pay2
  refine pool_apply _ _ (fun q n d' => ?_) _ _ _ p d
  refine mix_apply _ _ _ _ (fun _ _ _ => rfl) (fun q m d'' => ?_) q n d'
  refine dense_apply _ _ _ _ (fun q' n' e => ?_) _ _ _ _ q m d''
  refine mix_apply _ _ _ _ (fun _ _ _ => rfl) (fun q m d'' => ?_) q' n' e
  refine dense_apply _ _ _ _ (fun q' n' e => ?_) _ _ _ _ q m d''
  exact congrFun (shapeCast_self x0 _) _

/-- The value the body stores, at row `p` and class `c` of the block: the network on the 128 molecules of the block. -/
theorem payload_eq (x0 : Vec Ideal S128x64x70 .f32) (x1 : Vec Ideal S128x64x64 .f32) (x2 : Vec Ideal S128x7 .f32)
    (x3 : Vec Ideal S70x70 .f32) (x4 : Vec Ideal S70 .f32) (x5 : Vec Ideal S70x70 .f32) (x6 : Vec Ideal S70 .f32)
    (x7 : Vec Ideal S70x11 .f32) (x8 : Vec Ideal S7x11 .f32) (x9 : Vec Ideal S11 .f32) (p : Fin 128) (c : Fin 11) :
    k0_pay1 (F := Ideal) (k0_pay2 x1 x0 x3 x4 x5 x6) x2 (k0_pay3 x7) x8 x9 (ix2 p c)
      = Cert.Gnn.net (fun q n e => x0 (ix3 q n e)) (fun q n m => x1 (ix3 q n m)) (fun q k => x2 (ix2 q k))
          (fun e d => x3 (ix2 e d)) (fun d => x4 (ix1 d)) (fun e d => x5 (ix2 e d)) (fun d => x6 (ix1 d))
          (fun k c => x7 (ix2 k c)) (fun k c => x8 (ix2 k c)) (fun c => x9 (ix1 c)) p c := by
  unfold k0_pay1 k0_pay3 Cert.Gnn.net
  refine readout_apply _ _ _ _ _ _ _ _ _ (fun q k => pay2_apply x1 x0 x3 x4 x5 x6 q k) (fun _ _ => rfl)
    (fun k c' => ?_) (fun k c' => ?_) _ _ p c
  · exact congrFun (shapeCast_self x7 _) _
  · exact congrFun (shapeCast_self x8 _) _

end Cert.KernelIdeal.Payload

end
-- ==== Proof.Blocks.lean ====
/-
  From blocks to the array: grid point t writes rows 128·t … 128·t + 127 of the result.
-/
import proofs.«155086_j63797444214829_1_alg».proof.Proof.Gen.KernelIdeal.Value
import proofs.«155086_j63797444214829_1_alg».proof.Proof.Payload
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the three batched operands and the result move with the point along
    the molecule axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

theorem idx_zero : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0 ∧ win0_9.index t (0 : Fin 1) = 0 :=
  (by decide +kernel : ∀ t : Fin grid0.N, _)

/-- Molecule `q` of point `t`'s block is molecule 128·t + q of the batch. -/
def row (t : Fin cfg0.N) (q : Fin 128) : Fin 8192 :=
  ⟨128 * t.val + q.val, by have := t.isLt; have hN : cfg0.N = 64 := N_0; have := q.isLt; omega⟩

theorem iblk0_apply (c : Dev nD) (t : Fin cfg0.N) (q : Fin 128) (n : Fin 64) (e : Fin 70) :
    (iblk m c 0 t : Vec Ideal S128x64x70 .f32) (ix3 q n e) = (V m c main_v6 : S8192x64x70.Idx → EReal) (ix3 (row t q) n e) := by
  obtain ⟨e0, e1, e2, -⟩ := idx_facts t
  unfold iblk
  rw [View.read_apply]
  show V m c main_v6 _ = V m c main_v6 _
  congr 1
  funext a
  apply Fin.ext
  match a with
  | ⟨0, _⟩ => show win0_0.index t 0 * 128 + 1 * q.val = 128 * t.val + q.val; rw [e0]; omega
  | ⟨1, _⟩ => show win0_0.index t 1 * 64 + 1 * n.val = n.val; rw [e1]; omega
  | ⟨2, _⟩ => show win0_0.index t 2 * 70 + 1 * e.val = e.val; rw [e2]; omega

theorem iblk1_apply (c : Dev nD) (t : Fin cfg0.N) (q : Fin 128) (n : Fin 64) (k : Fin 64) :
    (iblk m c 1 t : Vec Ideal S128x64x64 .f32) (ix3 q n k) = (V m c main_arg1 : S8192x64x64.Idx → EReal) (ix3 (row t q) n k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t 0 * 128 + 1 * q.val = 128 * t.val + q.val; rw [e0]; omega
  | ⟨1, _⟩ => show win0_1.index t 1 * 64 + 1 * n.val = n.val; rw [e1]; omega
  | ⟨2, _⟩ => show win0_1.index t 2 * 64 + 1 * k.val = k.val; rw [e2]; omega

theorem iblk2_apply (c : Dev nD) (t : Fin cfg0.N) (q : Fin 128) (k : Fin 7) :
    (iblk m c 2 t : Vec Ideal S128x7 .f32) (ix2 q k) = (V m c main_arg2 : S8192x7.Idx → EReal) (ix2 (row t q) k) := by
  obtain ⟨-, -, -, -, -, -, e0, e1, -⟩ := idx_facts t
  unfold iblk
  rw [View.read_apply]
  show V m c main_arg2 _ = V m c main_arg2 _
  congr 1
  funext a
  apply Fin.ext
  match a with
  | ⟨0, _⟩ => show win0_2.index t 0 * 128 + 1 * q.val = 128 * t.val + q.val; rw [e0]; omega
  | ⟨1, _⟩ => show win0_2.index t 1 * 7 + 1 * k.val = k.val; rw [e1]; omega

/-- The weights and biases are staged whole: their one block is the array. -/
theorem iblk3_eq (c : Dev nD) (t : Fin cfg0.N) : (iblk m c 3 t : Vec Ideal S70x70 .f32) = (V m c main_arg4 : S70x70.Idx → EReal) := by
  obtain ⟨e0, e1, -⟩ := idx_zero t
  funext j
  unfold iblk
  rw [View.read_apply]
  show V m c main_arg4 _ = V m c main_arg4 _
  congr 1
  funext a
  apply Fin.ext
  match a with
  | ⟨0, _⟩ => show win0_3.index t 0 * 70 + 1 * (j 0).val = (j 0).val; rw [e0]; omega
  | ⟨1, _⟩ => show win0_3.index t 1 * 70 + 1 * (j 1).val = (j 1).val; rw [e1]; omega

theorem iblk4_eq (c : Dev nD) (t : Fin cfg0.N) : (iblk m c 4 t : Vec Ideal S70 .f32) = (V m c main_arg5 : S70.Idx → EReal) := by
  obtain ⟨-, -, e0, -⟩ := idx_zero t
  funext j
  unfold iblk
  rw [View.read_apply]
  show V m c main_arg5 _ = V m c main_arg5 _
  congr 1
  funext a
  apply Fin.ext
  match a with
  | ⟨0, _⟩ => show win0_4.index t 0 * 70 + 1 * (j 0).val = (j 0).val; rw [e0]; omega

theorem iblk5_eq (c : Dev nD) (t : Fin cfg0.N) : (iblk m c 5 t : Vec Ideal S70x70 .f32) = (V m c main_arg6 : S70x70.Idx → EReal) := by
  obtain ⟨-, -, -, e0, e1, -⟩ := idx_zero t
  funext j
  unfold iblk
  rw [View.read_apply]
  show V m c main_arg6 _ = V m c main_arg6 _
  congr 1
  funext a
  apply Fin.ext
  match a with
  | ⟨0, _⟩ => show win0_5.index t 0 * 70 + 1 * (j 0).val = (j 0).val; rw [e0]; omega
  | ⟨1, _⟩ => show win0_5.index t 1 * 70 + 1 * (j 1).val = (j 1).val; rw [e1]; omega

theorem iblk6_eq (c : Dev nD) (t : Fin cfg0.N) : (iblk m c 6 t : Vec Ideal S70 .f32) = (V m c main_arg7 : S70.Idx → EReal) := by
  obtain ⟨-, -, -, -, -, e0, -⟩ := idx_zero t
  funext j
  unfold iblk
  rw [View.read_apply]
  show V m c main_arg7 _ = V m c main_arg7 _
  congr 1
  funext a
  apply Fin.ext
  match a with
  | ⟨0, _⟩ => show win0_6.index t 0 * 70 + 1 * (j 0).val = (j 0).val; rw [e0]; omega

theorem iblk7_eq (c : Dev nD) (t : Fin cfg0.N) : (iblk m c 7 t : Vec Ideal S70x11 .f32) = (V m c main_v7 : S70x11.Idx → EReal) := by
  obtain ⟨-, -, -, -, -, -, e0, e1, -⟩ := idx_zero t
  funext j
  unfold iblk
  rw [View.read_apply]
  show V m c main_v7 _ = V m c main_v7 _
  congr 1
  funext a
  apply Fin.ext
  match a with
  | ⟨0, _⟩ => show win0_7.index t 0 * 70 + 1 * (j 0).val = (j 0).val; rw [e0]; omega
  | ⟨1, _⟩ => show win0_7.index t 1 * 11 + 1 * (j 1).val = (j 1).val; rw [e1]; omega

theorem iblk8_eq (c : Dev nD) (t : Fin cfg0.N) : (iblk m c 8 t : Vec Ideal S7x11 .f32) = (V m c main_v8 : S7x11.Idx → EReal) := by
  obtain ⟨-, -, -, -, -, -, -, -, e0, e1, -⟩ := idx_zero t
  funext j
  unfold iblk
  rw [View.read_apply]
  show V m c main_v8 _ = V m c main_v8 _
  congr 1
  funext a
  apply Fin.ext
  match a with
  | ⟨0, _⟩ => show win0_8.index t 0 * 7 + 1 * (j 0).val = (j 0).val; rw [e0]; omega
  | ⟨1, _⟩ => show win0_8.index t 1 * 11 + 1 * (j 1).val = (j 1).val; rw [e1]; omega

theorem iblk9_eq (c : Dev nD) (t : Fin cfg0.N) : (iblk m c 9 t : Vec Ideal S11 .f32) = (V m c main_arg9 : S11.Idx → EReal) := by
  obtain ⟨-, -, -, -, -, -, -, -, -, -, e0⟩ := idx_zero t
  funext j
  unfold iblk
  rw [View.read_apply]
  show V m c main_arg9 _ = V m c main_arg9 _
  congr 1
  funext a
  apply Fin.ext
  match a with
  | ⟨0, _⟩ => show win0_9.index t 0 * 11 + 1 * (j 0).val = (j 0).val; rw [e0]; omega

/-- The two row blocks of the read-out matrix, cut on the host before the launch, are its top 70 and bottom 7 rows. -/
theorem top_eq (c : Dev nD) (k : Fin 70) (j : Fin 11) :
    (V m c main_v7 : S70x11.Idx → EReal) (ix2 k j) = Cert.Gnn.topRows (m ((c : Thread nD τ).loc main_arg8)) k j := by
  have e : (V m c main_v7 : S70x11.Idx → EReal)
      = extractStridedSlice S70x11 ![0, 0] (m ((c : Thread nD τ).loc main_arg8)) slices_S77x11_S70x11_0_0 := by
    dsimp only [Gen.V, Gen.hostOps0]; after_results
  rw [e]
  exact extractStridedSlice_apply _ _ _ _ _ (fun a => by
    match a with
    | ⟨0, _⟩ => show k.val = 0 + k.val; omega
    | ⟨1, _⟩ => show j.val = 0 + j.val; omega)

theorem bottom_eq (c : Dev nD) (k : Fin 7) (j : Fin 11) :
    (V m c main_v8 : S7x11.Idx → EReal) (ix2 k j) = Cert.Gnn.bottomRows (m ((c : Thread nD τ).loc main_arg8)) k j := by
  have e : (V m c main_v8 : S7x11.Idx → EReal)
      = extractStridedSlice S7x11 ![70, 0] (m ((c : Thread nD τ).loc main_arg8)) slices_S77x11_S7x11_70_0 := by
    dsimp only [Gen.V, Gen.hostOps0]; after_results
  rw [e]
  exact extractStridedSlice_apply _ _ _ _ _ (fun a => by
    match a with
    | ⟨0, _⟩ => show 70 + k.val = 70 + k.val; rfl
    | ⟨1, _⟩ => show j.val = 0 + j.val; omega)

/-- The result array for the memory `m`: the network on the gathered features (as the region finds them) and the
    argument arrays. -/
abbrev result (c : Dev nD) : Buf (Elt Ideal) ((c : Thread nD τ).loc main_v9) :=
  Cert.Gnn.G (V m c main_v6) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- What point `t` stores, at row `p` and class `j` of its block, is the result at molecule 128·t + p. -/
theorem stored_eq (c : Dev nD) (t : Fin cfg0.N) (p : Fin 128) (j : Fin 11) :
    k0_pay1 (F := Ideal) (k0_pay2 (iblk m c 1 t) (iblk m c 0 t) (iblk m c 3 t) (iblk m c 4 t) (iblk m c 5 t) (iblk m c 6 t))
        (iblk m c 2 t) (k0_pay3 (iblk m c 7 t)) (iblk m c 8 t) (iblk m c 9 t) (ix2 p j)
      = result m c (ix2 (row t p) j) := by
  refine (Cert.KernelIdeal.Payload.payload_eq (iblk m c 0 t) (iblk m c 1 t) (iblk m c 2 t) (iblk m c 3 t) (iblk m c 4 t)
    (iblk m c 5 t) (iblk m c 6 t) (iblk m c 7 t) (iblk m c 8 t) (iblk m c 9 t) p j).trans ?_
  have h0 : (fun (q : Fin 128) (n : Fin 64) (e : Fin 70) => (iblk m c 0 t : Vec Ideal S128x64x70 .f32) (ix3 q n e))
      = fun q => (fun (b : Fin 8192) (n : Fin 64) (e : Fin 70) => (V m c main_v6 : S8192x64x70.Idx → EReal) (ix3 b n e)) (row t q) :=
    funext fun q => funext fun n => funext fun e => iblk0_apply m c t q n e
  have h1 : (fun (q : Fin 128) (n : Fin 64) (k : Fin 64) => (iblk m c 1 t : Vec Ideal S128x64x64 .f32) (ix3 q n k))
      = fun q => (fun (b : Fin 8192) (n : Fin 64) (k : Fin 64) => (m ((c : Thread nD τ).loc main_arg1) : S8192x64x64.Idx → EReal) (ix3 b n k)) (row t q) :=
    funext fun q => funext fun n => funext fun k => (iblk1_apply m c t q n k).trans (by rw [V_main_arg1])
  have h2 : (fun (q : Fin 128) (k : Fin 7) => (iblk m c 2 t : Vec Ideal S128x7 .f32) (ix2 q k))
      = fun q => (fun (b : Fin 8192) (k : Fin 7) => (m ((c : Thread nD τ).loc main_arg2) : S8192x7.Idx → EReal) (ix2 b k)) (row t q) :=
    funext fun q => funext fun k => (iblk2_apply m c t q k).trans (by rw [V_main_arg2])
  have h7 : (fun (k : Fin 70) (j : Fin 11) => (iblk m c 7 t : Vec Ideal S70x11 .f32) (ix2 k j))
      = Cert.Gnn.topRows (m ((c : Thread nD τ).loc main_arg8)) :=
    funext fun k => funext fun j => by rw [iblk7_eq]; exact top_eq m c k j
  have h8 : (fun (k : Fin 7) (j : Fin 11) => (iblk m c 8 t : Vec Ideal S7x11 .f32) (ix2 k j))
      = Cert.Gnn.bottomRows (m ((c : Thread nD τ).loc main_arg8)) :=
    funext fun k => funext fun j => by rw [iblk8_eq]; exact bottom_eq m c k j
  rw [h0, h1, h2, h7, h8, iblk3_eq, iblk4_eq, iblk5_eq, iblk6_eq, iblk9_eq, V_main_arg4, V_main_arg5, V_main_arg6, V_main_arg7, V_main_arg9]
  rfl

/-- WHAT POINT `t` WRITES BACK is block `t` of the result. -/
theorem flushed_eq (c : Dev nD) (t : Fin cfg0.N) :
    (dats m 0 c).flushed 10 t = ((cfg0.win 10).blk t).view.read (Elt Ideal) (result m c) := by
  rw [flushed10]
  unfold out0_10
  rw [View.canon_unit_zero hz2]
  simp only [View.ld_unit_zero (S := S128x64x64) hz3, View.ld_unit_zero (S := S128x64x70) hz3,
    View.ld_unit_zero (S := S70x70) hz2, View.ld_unit_zero (S := S70) hz1, View.ld_unit_zero (S := S128x7) hz2,
    View.ld_unit_zero (S := S70x11) hz2, View.ld_unit_zero (S := S7x11) hz2, View.ld_unit_zero (S := S11) hz1]
  obtain ⟨-, -, -, -, -, -, -, -, e0, e1⟩ := idx_facts t
  have key : ∀ y : S128x11.Idx,
      k0_pay1 (F := Ideal) (k0_pay2 (iblk m c 1 t) (iblk m c 0 t) (iblk m c 3 t) (iblk m c 4 t) (iblk m c 5 t) (iblk m c 6 t))
          (iblk m c 2 t) (k0_pay3 (iblk m c 7 t)) (iblk m c 8 t) (iblk m c 9 t) y
        = result m c (((cfg0.win 10).blk t).view.emb y) := by
    intro y
    obtain ⟨p, j, rfl⟩ : ∃ (p : Fin 128) (j : Fin 11), y = ix2 p j := ⟨y 0, y 1, eq_ix2 y⟩
    refine (stored_eq m c t p j).trans ?_
    congr 1
    funext a
    apply Fin.ext
    match a with
    | ⟨0, _⟩ => show 128 * t.val + p.val = win0_10.index t 0 * 128 + 1 * p.val; rw [e0]; omega
    | ⟨1, _⟩ => show j.val = win0_10.index t 1 * 11 + 1 * j.val; rw [e1]; omega
  funext y
  exact key y

/-- Every row of the result lies in some point's block: row r in point r / 128's. -/
theorem cover (i : S8192x11.Idx) :
    ∃ t : Fin cfg0.N, (cfg0.win 10).flush t = true ∧ i ∈ ((cfg0.win 10).blk t).view.set := by
  have hi0 : (i 0).val < 8192 := (i 0).isLt
  have hi1 : (i 1).val < 11 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, -, -, -, e0, e1⟩ := idx_facts t
  refine ⟨t, flush0_10 t, ?_⟩
  show i ∈ ((View.whole main_v9).slice (win0_10.rect t)).set
  rw [View.set_slice_whole, Rect.mem_set_unit]
  intro a
  match a with
  | ⟨0, _⟩ => show win0_10.index t 0 * 128 ≤ (i 0).val ∧ (i 0).val < win0_10.index t 0 * 128 + 128; rw [e0, ht]; omega
  | ⟨1, _⟩ => show win0_10.index t 1 * 11 ≤ (i 1).val ∧ (i 1).val < win0_10.index t 1 * 11 + 11; rw [e1]; omega

/-- So the result array ends holding the network's output for the whole batch. -/
theorem final (c : Dev nD) : (dats m 0 c).arrAt 10 cfg0.N = result m c :=
  (dats m 0 c).arrAt_eq_of_cover 10 (result m c) (fun t _ => flushed_eq m c t) (fun i => cover i)

/-- The gathered features, as the region finds them: the embedding rows at the wrapped atom indices, the host's own term. -/
theorem features_eq (c : Dev nD) : (V m c main_v6 : S8192x64x70.Idx → EReal)
    = Host.gather gather_S10000x70_S8192x64x1_S8192x64x70_2_0_n_n_0_2_170 (m ((c : Thread nD τ).loc main_arg3))
        (broadcastInDim S8192x64x1 ![0, 1] bcast_S8192x64_S8192x64x1_0_1
          (select (cmpi .slt (m ((c : Thread nD τ).loc main_arg0)) (broadcastInDim S8192x64 ![] bcast_S_S8192x64 (constantI S_ 32 0#32)))
            (addi (m ((c : Thread nD τ).loc main_arg0)) (broadcastInDim S8192x64 ![] bcast_S_S8192x64 (constantI S_ 32 10000#32)))
            (m ((c : Thread nD τ).loc main_arg0)))) := by
  dsimp only [Gen.V, Gen.hostOps0]; after_results

/-- The kernel's run with its result array named: the network on the whole batch; the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Blocks

end
-- ==== Proof.RefNet.lean ====
/-
  The reference's result, read at an index, is the network on the whole batch.
-/
import proofs.«155086_j63797444214829_1_alg».proof.Proof.Gen.ReferenceIdeal.Read
import proofs.«155086_j63797444214829_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! Index functions of the reference's stages at coordinates. -/

theorem lidx7 (q : Fin 8192) (n : Fin 64) (d k : Fin 70) : lidx_main_v7 (ix3 q n d) k = ix3 q n k :=
  funext fun a => by match a with | ⟨0, _⟩ => rfl | ⟨1, _⟩ => rfl | ⟨2, _⟩ => rfl
theorem ridx7 (q : Fin 8192) (n : Fin 64) (d k : Fin 70) : ridx_main_v7 (ix3 q n d) k = ix2 k d :=
  funext fun a => by match a with | ⟨0, _⟩ => rfl | ⟨1, _⟩ => rfl
theorem idx89 (q : Fin 8192) (n : Fin 64) (d : Fin 70) : idx_main_v8 (idx_main_v9 (ix3 q n d)) = ix1 d :=
  funext fun a => by match a with | ⟨0, _⟩ => rfl
theorem lidx12 (q : Fin 8192) (n : Fin 64) (d : Fin 70) (m : Fin 64) : lidx_main_v12 (ix3 q n d) m = ix3 q n m :=
  funext fun a => by match a with | ⟨0, _⟩ => rfl | ⟨1, _⟩ => rfl | ⟨2, _⟩ => rfl
theorem ridx12 (q : Fin 8192) (n : Fin 64) (d : Fin 70) (m : Fin 64) : ridx_main_v12 (ix3 q n d) m = ix3 q m d :=
  funext fun a => by match a with | ⟨0, _⟩ => rfl | ⟨1, _⟩ => rfl | ⟨2, _⟩ => rfl
theorem lidx13 (q : Fin 8192) (n : Fin 64) (d k : Fin 70) : lidx_main_v13 (ix3 q n d) k = ix3 q n k :=
  funext fun a => by match a with | ⟨0, _⟩ => rfl | ⟨1, _⟩ => rfl | ⟨2, _⟩ => rfl
theorem ridx13 (q : Fin 8192) (n : Fin 64) (d k : Fin 70) : ridx_main_v13 (ix3 q n d) k = ix2 k d :=
  funext fun a => by match a with | ⟨0, _⟩ => rfl | ⟨1, _⟩ => rfl
theorem idx1415 (q : Fin 8192) (n : Fin 64) (d : Fin 70) : idx_main_v14 (idx_main_v15 (ix3 q n d)) = ix1 d :=
  funext fun a => by match a with | ⟨0, _⟩ => rfl
theorem lidx18 (q : Fin 8192) (n : Fin 64) (d : Fin 70) (m : Fin 64) : lidx_main_v18 (ix3 q n d) m = ix3 q n m :=
  funext fun a => by match a with | ⟨0, _⟩ => rfl | ⟨1, _⟩ => rfl | ⟨2, _⟩ => rfl
theorem ridx18 (q : Fin 8192) (n : Fin 64) (d : Fin 70) (m : Fin 64) : ridx_main_v18 (ix3 q n d) m = ix3 q m d :=
  funext fun a => by match a with | ⟨0, _⟩ => rfl | ⟨1, _⟩ => rfl | ⟨2, _⟩ => rfl
theorem idx19 (q : Fin 8192) (d : Fin 70) (n : Fin 64) : idx_main_v19 (ix2 q d) n = ix3 q n d :=
  funext fun a => by match a with | ⟨0, _⟩ => rfl | ⟨1, _⟩ => rfl | ⟨2, _⟩ => rfl
theorem lidx21 (q : Fin 8192) (c : Fin 11) (k : Fin 77) : lidx_main_v21 (ix2 q c) k = ix2 q k :=
  funext fun a => by match a with | ⟨0, _⟩ => rfl | ⟨1, _⟩ => rfl
theorem ridx21 (q : Fin 8192) (c : Fin 11) (k : Fin 77) : ridx_main_v21 (ix2 q c) k = ix2 k c :=
  funext fun a => by match a with | ⟨0, _⟩ => rfl | ⟨1, _⟩ => rfl
theorem idx2223 (q : Fin 8192) (c : Fin 11) : idx_main_v22 (idx_main_v23 (ix2 q c)) = ix1 c :=
  funext fun a => by match a with | ⟨0, _⟩ => rfl

section Stages

variable (x0 : (⟨S8192x64, .i32⟩ : BufTy).Contents (Elt Ideal)) (x1 : (⟨S8192x64x64, .f32⟩ : BufTy).Contents (Elt Ideal))
  (x2 : (⟨S8192x7, .f32⟩ : BufTy).Contents (Elt Ideal)) (x3 : (⟨S10000x70, .f32⟩ : BufTy).Contents (Elt Ideal))
  (x4 : (⟨S70x70, .f32⟩ : BufTy).Contents (Elt Ideal)) (x5 : (⟨S70, .f32⟩ : BufTy).Contents (Elt Ideal))
  (x6 : (⟨S70x70, .f32⟩ : BufTy).Contents (Elt Ideal)) (x7 : (⟨S70, .f32⟩ : BufTy).Contents (Elt Ideal))
  (x8 : (⟨S77x11, .f32⟩ : BufTy).Contents (Elt Ideal)) (x9 : (⟨S11, .f32⟩ : BufTy).Contents (Elt Ideal))

/-- The gathered embedding rows, by coordinates. -/
abbrev feat : Fin 8192 → Fin 64 → Fin 70 → EReal := fun q n e => val_main_v6 (F := Ideal) x0 x3 (ix3 q n e)
/-- The adjacency, by coordinates. -/
abbrev adj : Fin 8192 → Fin 64 → Fin 64 → EReal := fun q n m => x1 (ix3 q n m)

/-- The first dense layer. -/
theorem stage11 (q : Fin 8192) (n : Fin 64) (d : Fin 70) :
    val_main_v11 (F := Ideal) x0 x3 x4 x5 (ix3 q n d)
      = Cert.Gnn.dense (feat x0 x3) (fun e d => x4 (ix2 e d)) (fun d => x5 (ix1 d)) q n d := by
  rw [val_main_v11_apply, val_main_v10_apply, val_main_v7_apply, val_main_v9_apply, val_main_v8_apply,
    val_main_call0_v0_apply, val_main_call0_cst_apply, idx89]
  simp only [lidx7, ridx7]
  rw [Ideal.maximumf_def, Ideal.addf_def, Ideal.ofBits_def, Ideal.ofBits_zero_f32]
  rfl

/-- The first mixing through the adjacency. -/
theorem stage12 (q : Fin 8192) (n : Fin 64) (d : Fin 70) :
    val_main_v12 (F := Ideal) x0 x1 x3 x4 x5 (ix3 q n d)
      = Cert.Gnn.mix (adj x1) (Cert.Gnn.dense (feat x0 x3) (fun e d => x4 (ix2 e d)) (fun d => x5 (ix1 d))) q n d := by
  rw [val_main_v12_apply]
  simp only [lidx12, ridx12, stage11]
  rfl

/-- The second dense layer. -/
theorem stage17 (q : Fin 8192) (n : Fin 64) (d : Fin 70) :
    val_main_v17 (F := Ideal) x0 x1 x3 x4 x5 x6 x7 (ix3 q n d)
      = Cert.Gnn.dense (Cert.Gnn.mix (adj x1) (Cert.Gnn.dense (feat x0 x3) (fun e d => x4 (ix2 e d)) (fun d => x5 (ix1 d))))
          (fun e d => x6 (ix2 e d)) (fun d => x7 (ix1 d)) q n d := by
  rw [val_main_v17_apply, val_main_v16_apply, val_main_v13_apply, val_main_v15_apply, val_main_v14_apply,
    val_main_call1_v0_apply, val_main_call1_cst_apply, idx1415]
  simp only [lidx13, ridx13, stage12]
  rw [Ideal.maximumf_def, Ideal.addf_def, Ideal.ofBits_def, Ideal.ofBits_zero_f32]
  rfl

/-- The second mixing. -/
theorem stage18 (q : Fin 8192) (n : Fin 64) (d : Fin 70) :
    val_main_v18 (F := Ideal) x0 x1 x3 x4 x5 x6 x7 (ix3 q n d)
      = Cert.Gnn.mix (adj x1) (Cert.Gnn.dense (Cert.Gnn.mix (adj x1) (Cert.Gnn.dense (feat x0 x3) (fun e d => x4 (ix2 e d)) (fun d => x5 (ix1 d))))
          (fun e d => x6 (ix2 e d)) (fun d => x7 (ix1 d))) q n d := by
  rw [val_main_v18_apply]
  simp only [lidx18, ridx18, stage17]
  rfl

/-- The sum over the atoms. -/
theorem stage19 (q : Fin 8192) (d : Fin 70) :
    val_main_v19 (F := Ideal) x0 x1 x3 x4 x5 x6 x7 (ix2 q d)
      = Cert.Gnn.pool (Cert.Gnn.mix (adj x1) (Cert.Gnn.dense (Cert.Gnn.mix (adj x1) (Cert.Gnn.dense (feat x0 x3) (fun e d => x4 (ix2 e d)) (fun d => x5 (ix1 d))))
          (fun e d => x6 (ix2 e d)) (fun d => x7 (ix1 d)))) q d := by
  rw [val_main_v19_apply, val_main_cst_apply, Ideal.ofBits_def, Ideal.ofBits_zero_f32, zero_add]
  simp only [idx19, stage18]
  rfl

end Stages

section Readout

variable (x0 : (⟨S8192x64, .i32⟩ : BufTy).Contents (Elt Ideal)) (x1 : (⟨S8192x64x64, .f32⟩ : BufTy).Contents (Elt Ideal))
  (x2 : (⟨S8192x7, .f32⟩ : BufTy).Contents (Elt Ideal)) (x3 : (⟨S10000x70, .f32⟩ : BufTy).Contents (Elt Ideal))
  (x4 : (⟨S70x70, .f32⟩ : BufTy).Contents (Elt Ideal)) (x5 : (⟨S70, .f32⟩ : BufTy).Contents (Elt Ideal))
  (x6 : (⟨S70x70, .f32⟩ : BufTy).Contents (Elt Ideal)) (x7 : (⟨S70, .f32⟩ : BufTy).Contents (Elt Ideal))
  (x8 : (⟨S77x11, .f32⟩ : BufTy).Contents (Elt Ideal)) (x9 : (⟨S11, .f32⟩ : BufTy).Contents (Elt Ideal))

/-- The joined row at a column below 70 is the pooled row there. -/
theorem stage20_left (q : Fin 8192) (k : Fin 70) :
    val_main_v20 (F := Ideal) x0 x1 x2 x3 x4 x5 x6 x7 (ix2 q (⟨k.val, by omega⟩ : Fin 77))
      = val_main_v19 (F := Ideal) x0 x1 x3 x4 x5 x6 x7 (ix2 q k) := by
  unfold val_main_v20
  generalize val_main_v19 (F := Ideal) x0 x1 x3 x4 x5 x6 x7 = P
  exact concatenate_pair_apply_left (1 : Fin S8192x77.rank) P x2 concatenates_S8192x70_S8192x7_S8192x77_d1 _ rfl (ix2 q k)
    (fun b => by match b with | ⟨0, _⟩ => rfl | ⟨1, _⟩ => rfl)

/-- The joined row at column 70 + k is the descriptor k. -/
theorem stage20_right (q : Fin 8192) (k : Fin 7) :
    val_main_v20 (F := Ideal) x0 x1 x2 x3 x4 x5 x6 x7 (ix2 q (⟨70 + k.val, by omega⟩ : Fin 77))
      = x2 (ix2 q k) := by
  unfold val_main_v20
  generalize val_main_v19 (F := Ideal) x0 x1 x3 x4 x5 x6 x7 = P
  exact concatenate_pair_apply_right (1 : Fin S8192x77.rank) P x2 concatenates_S8192x70_S8192x7_S8192x77_d1 _ rfl rfl (ix2 q k)
    (fun b hb => by match b, hb with | ⟨0, _⟩, _ => rfl | ⟨1, _⟩, hb => exact absurd rfl hb)
    (by show k.val + 70 = 70 + k.val; omega)

/-- The read-out. -/
theorem stage24 (q : Fin 8192) (c : Fin 11) :
    val_main_v24 (F := Ideal) x0 x1 x2 x3 x4 x5 x6 x7 x8 x9 (ix2 q c)
      = Cert.Gnn.net (feat x0 x3) (adj x1) (fun q k => x2 (ix2 q k)) (fun e d => x4 (ix2 e d)) (fun d => x5 (ix1 d))
          (fun e d => x6 (ix2 e d)) (fun d => x7 (ix1 d)) (Cert.Gnn.topRows x8) (Cert.Gnn.bottomRows x8)
          (fun c => x9 (ix1 c)) q c := by
  rw [val_main_v24_apply, val_main_v21_apply, val_main_v23_apply, val_main_v22_apply, idx2223]
  simp only [lidx21, ridx21]
  rw [Ideal.addf_def, Cert.Gnn.sum_seventy_seven]
  simp only [stage20_left, stage20_right, stage19]
  rfl

end Readout

/-- The reference's last stage at (b, c): the network's output `c` for molecule `b`, its features the gathered
    embedding rows (the stage before the first layer, left as the program states it). -/
theorem ref_eq_G (x0 : (⟨S8192x64, .i32⟩ : BufTy).Contents (Elt Ideal)) (x1 : (⟨S8192x64x64, .f32⟩ : BufTy).Contents (Elt Ideal))
    (x2 : (⟨S8192x7, .f32⟩ : BufTy).Contents (Elt Ideal)) (x3 : (⟨S10000x70, .f32⟩ : BufTy).Contents (Elt Ideal))
    (x4 : (⟨S70x70, .f32⟩ : BufTy).Contents (Elt Ideal)) (x5 : (⟨S70, .f32⟩ : BufTy).Contents (Elt Ideal))
    (x6 : (⟨S70x70, .f32⟩ : BufTy).Contents (Elt Ideal)) (x7 : (⟨S70, .f32⟩ : BufTy).Contents (Elt Ideal))
    (x8 : (⟨S77x11, .f32⟩ : BufTy).Contents (Elt Ideal)) (x9 : (⟨S11, .f32⟩ : BufTy).Contents (Elt Ideal)) :
    val_main_v24 (F := Ideal) x0 x1 x2 x3 x4 x5 x6 x7 x8 x9
      = Cert.Gnn.G (val_main_v6 (F := Ideal) x0 x3) x1 x2 x4 x5 x6 x7 x8 x9 := by
  funext i
  obtain ⟨b, c, rfl⟩ : ∃ (b : Fin 8192) (c : Fin 11), i = ix2 b c := ⟨i 0, i 1, eq_ix2 i⟩
  rw [stage24]
  rfl

end Cert.ReferenceIdeal.RefValue

end
-- ==== Proof.lean ====
/-
  A batch of 8192 molecules, each 64 atoms with 70 features looked up in an embedding table, goes through two
  message-passing layers (a dense map with a rectifier on every atom row, then the adjacency-weighted sum over the
  molecule's atoms), a sum over the atoms, and an affine read-out of the pooled features joined with 7 extra
  descriptors. The kernel works on blocks of 128 molecules: it flattens a block to 8192 atom rows for the dense
  products, multiplies by the adjacency molecule by molecule, and splits the read-out into the product with the top
  70 rows of the weight matrix plus the product with its bottom 7 rows; its operands pass through a narrower float
  format, which is the identity on extended reals. The reference does the same on the whole batch, with the pooled
  features and the descriptors concatenated into 77 columns before one product.

  Both are the one function `Cert.Gnn.net` (Proof/Spec.lean) of the argument arrays. The molecules are independent,
  so the network of a block of molecules is the network of the batch at those molecules, by definition
  (Proof/Blocks.lean); a product over 77 = 70 + 7 columns is the sum of the two partial products, by associativity of
  the sum alone (Proof/RefNet.lean); the lookup of the embedding rows is the same host term on both sides. No law
  that could fail at an infinity is used, so the finiteness of the inputs is never opened.
  The two kernel frames are the generated frame proofs, the reference's frame its generated run with the result dropped,
  and the idealization rewrote nothing, so its conjunct is trivial.
-/
import proofs.«155086_j63797444214829_1_alg».proof.Defs
import proofs.«155086_j63797444214829_1_alg».proof.Proof.Gen.Kernel
import proofs.«155086_j63797444214829_1_alg».proof.Proof.Gen.Kernel.Skeleton
import proofs.«155086_j63797444214829_1_alg».proof.Proof.Gen.Kernel.Launch
import proofs.«155086_j63797444214829_1_alg».proof.Proof.Gen.Kernel.Points
import proofs.«155086_j63797444214829_1_alg».proof.Proof.Gen.Kernel.Frame
import proofs.«155086_j63797444214829_1_alg».proof.Proof.Gen.KernelIdeal
import proofs.«155086_j63797444214829_1_alg».proof.Proof.Gen.KernelIdeal.Skeleton
import proofs.«155086_j63797444214829_1_alg».proof.Proof.Gen.KernelIdeal.Launch
import proofs.«155086_j63797444214829_1_alg».proof.Proof.Gen.KernelIdeal.Points
import proofs.«155086_j63797444214829_1_alg».proof.Proof.Gen.KernelIdeal.Frame
import proofs.«155086_j63797444214829_1_alg».proof.Proof.Gen.ReferenceIdeal
import proofs.«155086_j63797444214829_1_alg».proof.Proof.Gen.Pre_finite_inputs
import proofs.«155086_j63797444214829_1_alg».proof.Proof.Gen.KernelIdeal.Value
import proofs.«155086_j63797444214829_1_alg».proof.Proof.Gen.ReferenceIdeal.Run
import proofs.«155086_j63797444214829_1_alg».proof.Proof.Gen.ReferenceIdeal.Read
import proofs.«155086_j63797444214829_1_alg».proof.Proof.Blocks
import proofs.«155086_j63797444214829_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's are the same network
    output: the kernel's by its blocks, the reference's stage by stage, and the gathered embedding rows, the one
    operand neither side opens, are the same host term of the same arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [h0, h1, h2, h3, h4, h5, h6, h7, h8, h9]
  refine (Cert.ReferenceIdeal.Read.val_main_v24_eq _ _ _ _ _ _ _ _ _ _).trans ?_
  rw [Cert.ReferenceIdeal.RefValue.ref_eq_G]
  show Cert.Gnn.G _ _ _ _ _ _ _ _ _ = Cert.Gnn.G (Cert.KernelIdeal.Gen.V m c Cert.KernelIdeal.main_v6) _ _ _ _ _ _ _ _
  rw [Cert.KernelIdeal.Blocks.features_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
